-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S400x10000 .f32 .bf16
  ∧ IdealRules.truncf_extf.Statement Cert.KernelIdeal.S400x128 .f32 .bf16
  ∧ IdealRules.truncf_extf.Statement Cert.KernelIdeal.S400x10000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14_1)) (v1 : (c : Dev Cert.KernelIdeal.nD) → Buf (Elt Ideal) ((c.tc : Thread Cert.KernelIdeal.nD Cert.KernelIdeal.τ).loc Cert.KernelIdeal.main_v13_0)) (v2 : (c : Dev Cert.KernelIdeal.nD) → Buf (Elt Ideal) ((c.tc : Thread Cert.KernelIdeal.nD Cert.KernelIdeal.τ).loc Cert.KernelIdeal.main_v14_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_1) = v0 c
          ∧ r.2.mem ((c.tc : Thread Cert.KernelIdeal.nD Cert.KernelIdeal.τ).loc Cert.KernelIdeal.main_v13_0) = v1 c
          ∧ r.2.mem ((c.tc : Thread Cert.KernelIdeal.nD Cert.KernelIdeal.τ).loc Cert.KernelIdeal.main_v14_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  reducesTo_S_S_d : S_.ReducesTo [] S_

variable [Facts]

def fn_part2 {F : FTy → Type} [FloatOps F] (main_v32 : IVec S_ 1) (main_v33 : FVec F S_ .f32) : IVec S_ 1 :=
  let main_cst_12 : FVec F S_ .f32 := constant S_ .f32 0x7F800000#32
  let main_v34 : IVec S_ 1 := cmpf .olt main_v33 main_cst_12
  let main_c_13 : IVec S_ 1 := constantI S_ 1 1#1
  let main_v35 : IVec S_ 1 := (fun x v => Host.reduce IntOp.andi x v reducesTo_S_S_d h_S_) main_v34 main_c_13
  let main_v36 : IVec S_ 1 := andi main_v32 main_v35
  main_v36

def fn_part1 {F : FTy → Type} [FloatOps F] (main_arg4 : FVec F S128x40 .f32) (main_arg5 : FVec F S40 .f32) (main_arg6 : FVec F S_ .f32) (main_arg7 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg4
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S_ .f32 := Host.absf main_arg6
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S_ .f32 := Host.absf main_arg7
  fn_part2 (F := F) main_v32 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x40 .f32) (main_arg5 : FVec F S40 .f32) (main_arg6 : FVec F S_ .f32) (main_arg7 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S10000x256 : Shape := ⟨2, ![10000, 256]⟩
abbrev S1x1 : Shape := ⟨2, ![1, 1]⟩
abbrev S1x128 : Shape := ⟨2, ![1, 128]⟩
abbrev S1x40 : Shape := ⟨2, ![1, 40]⟩
abbrev S400x10000 : Shape := ⟨2, ![400, 10000]⟩
abbrev S400x128 : Shape := ⟨2, ![400, 128]⟩
abbrev S400x256 : Shape := ⟨2, ![400, 256]⟩
abbrev S10000x40 : Shape := ⟨2, ![10000, 40]⟩
abbrev S400x40 : Shape := ⟨2, ![400, 40]⟩
abbrev S400 : Shape := ⟨1, ![400]⟩
abbrev S400x1 : Shape := ⟨2, ![400, 1]⟩

abbrev nBuf : Space → Nat
  | .hbm => 27
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S_, .f32⟩
  | .hbm, ⟨7, _⟩ => ⟨S_, .f32⟩
  | .hbm, ⟨8, _⟩ => ⟨S10000x128, .bf16⟩
  | .hbm, ⟨9, _⟩ => ⟨S10000x128, .f32⟩
  | .hbm, ⟨10, _⟩ => ⟨S10000x128, .f32⟩
  | .hbm, ⟨11, _⟩ => ⟨S10000x128, .bf16⟩
  | .hbm, ⟨12, _⟩ => ⟨S10000x256, .bf16⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S1x128, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S1x128, .f32⟩
  | .hbm, ⟨21, _⟩ => ⟨S1x128, .f32⟩
  | .hbm, ⟨22, _⟩ => ⟨S1x40, .f32⟩
  | .hbm, ⟨23, _⟩ => ⟨S10000x128, .f32⟩
  | .hbm, ⟨24, _⟩ => ⟨S10000x256, .bf16⟩
  | .hbm, ⟨25, _⟩ => ⟨S10000x128, .f32⟩
  | .hbm, ⟨26, _⟩ => ⟨S10000x40, .f32⟩
  | .local _ .vmem, ⟨0, _⟩ => ⟨S400x10000, .f32⟩
  | .local _ .vmem, ⟨1, _⟩ => ⟨S400x10000, .f32⟩
  | .local _ .vmem, ⟨2, _⟩ => ⟨S10000x256, .bf16⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | .local _ .vmem, ⟨8, _⟩ => ⟨S400x256, .bf16⟩
  | .local _ .vmem, ⟨9, _⟩ => ⟨S400x256, .bf16⟩
  | .local _ .vmem, ⟨10, _⟩ => ⟨S400x10000, .f32⟩
  | .local _ .vmem, ⟨11, _⟩ => ⟨S400x10000, .f32⟩
  | .local _ .vmem, ⟨12, _⟩ => ⟨S10000x256, .bf16⟩
  | .local _ .vmem, ⟨13, _⟩ => ⟨S128x40, .f32⟩
  | .local _ .vmem, ⟨14, _⟩ => ⟨S1x40, .f32⟩
  | .local _ .vmem, ⟨15, _⟩ => ⟨S1x128, .f32⟩
  | .local _ .vmem, ⟨16, _⟩ => ⟨S400x128, .f32⟩
  | .local _ .vmem, ⟨17, _⟩ => ⟨S400x128, .f32⟩
  | .local _ .vmem, ⟨18, _⟩ => ⟨S400x40, .f32⟩
  | .local _ .vmem, ⟨19, _⟩ => ⟨S400x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14_0 : Ref sig .tc := ⟨.hbm, 25, rfl⟩
abbrev main_v14_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![25, 1], ![false, false]⟩

def k0_off1 (i : grid0.Coords) : Fin 2 → Nat :=
  let arg1 : BitVec 32 := BitVec.ofNat 32 (i 1).val
  let c10000_i32 : BitVec 32 := 10000#32
  let v5 : BitVec 32 := Scalar.muli arg1 c10000_i32
  let v6 : Index := Scalar.indexCast v5
  let c0_1 : Index := 0#32
  ![v6.toNat, 0]
def k0_cond3 (i : grid0.Coords) : BitVec 1 :=
  let arg1 : BitVec 32 := BitVec.ofNat 32 (i 1).val
  let c0_i32_6 : BitVec 32 := 0#32
  let v21 : BitVec 1 := Scalar.cmpi .eq arg1 c0_i32_6
  let v22 : BitVec 32 := Scalar.extui v21
  let c0_i32_7 : BitVec 32 := 0#32
  let v23 : BitVec 1 := Scalar.cmpi .ne v22 c0_i32_7
  v23

def k0_off2 (i : grid0.Coords) : Fin 2 → Nat :=
  let arg0 : BitVec 32 := BitVec.ofNat 32 (i 0).val
  let c400_i32 : BitVec 32 := 400#32
  let v24 : BitVec 32 := Scalar.muli arg0 c400_i32
  let v25 : Index := Scalar.indexCast v24
  let c0_8 : Index := 0#32
  ![v25.toNat, 0]
def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_3 : BitVec 32 := 0#32
  let v17 : BitVec 1 := Scalar.cmpi .ne v16 c0_i32_3
  v17

def k0_cond2 (i : grid0.Coords) : BitVec 1 :=
  let arg1 : BitVec 32 := BitVec.ofNat 32 (i 1).val
  let c0_i32_4 : BitVec 32 := 0#32
  let v18 : BitVec 1 := Scalar.cmpi .ne arg1 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S400x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![25, 1], ![false, false]⟩

def k1_off1 (i : grid1.Coords) : Fin 2 → Nat :=
  let arg1 : BitVec 32 := BitVec.ofNat 32 (i 1).val
  let c10000_i32 : BitVec 32 := 10000#32
  let v5 : BitVec 32 := Scalar.muli arg1 c10000_i32
  let v6 : Index := Scalar.indexCast v5
  let c0_1 : Index := 0#32
  ![v6.toNat, 0]
def k1_cond3 (i : grid1.Coords) : BitVec 1 :=
  let arg1 : BitVec 32 := BitVec.ofNat 32 (i 1).val
  let c0_i32_6 : BitVec 32 := 0#32
  let v21 : BitVec 1 := Scalar.cmpi .eq arg1 c0_i32_6
  let v22 : BitVec 32 := Scalar.extui v21
  let c0_i32_7 : BitVec 32 := 0#32
  let v23 : BitVec 1 := Scalar.cmpi .ne v22 c0_i32_7
  v23

def k1_off2 (i : grid1.Coords) : Fin 2 → Nat :=
  let arg0 : BitVec 32 := BitVec.ofNat 32 (i 0).val
  let c400_i32 : BitVec 32 := 400#32
  let v24 : BitVec 32 := Scalar.muli arg0 c400_i32
  let v25 : Index := Scalar.indexCast v24
  let c0_8 : Index := 0#32
  ![v25.toNat, 0]
def k1_cond1 (i : grid1.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_3 : BitVec 32 := 0#32
  let v17 : BitVec 1 := Scalar.cmpi .ne v16 c0_i32_3
  v17

def k1_cond2 (i : grid1.Coords) : BitVec 1 :=
  let arg1 : BitVec 32 := BitVec.ofNat 32 (i 1).val
  let c0_i32_4 : BitVec 32 := 0#32
  let v18 : BitVec 1 := Scalar.cmpi .ne arg1 c0_i32_4
  let v19 : BitVec 32 := Scalar.extui v18
  let c0_i32_5 : BitVec 32 := 0#32
  let v20 : BitVec 1 := Scalar.cmpi .ne v19 c0_i32_5
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S400x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  bitsLt_bf16_f32 : FTy.bits .bf16 < FTy.bits .f32
  concatenates_S10000x128_S10000x128_S10000x256_d1 : Shape.Concatenates [S10000x128, S10000x128] S10000x256 1
  shapeCasts_S_S1x1 : S_.ShapeCasts S1x1
  bcast_S1x1_S1x128_0_1 : S1x1.BroadcastsInDim S1x128 (![0, 1] : Fin 2 → Fin S1x128.rank)
  shapeCasts_S128_S1x128 : S128.ShapeCasts S1x128
  shapeCasts_S40_S1x40 : S40.ShapeCasts S1x40
  inb_S400x10000_S400x10000_0_0 : ∀ a, (![0, 0] : Fin 2 → Nat) a + S400x10000.size a ≤ S400x10000.size a
  h_S400x10000 : 0 < S400x10000.numel
  h_S10000x256 : 0 < S10000x256.numel
  shapeCasts_S10000x256_S10000x256 : S10000x256.ShapeCasts S10000x256
  slices_S400x256_o0_0_S400x128 : S400x256.Slices ![0, 0] S400x128
  slices_S400x256_o0_128_S400x128 : S400x256.Slices ![0, 128] S400x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  h_S400x256 : 0 < S400x256.numel
  shapeCasts_S400x256_S400x256 : S400x256.ShapeCasts S400x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x128_S128x128_0_0 : ∀ a, (![0, 0] : Fin 2 → Nat) a + S128x128.size a ≤ S128x128.size a
  h_S128x128 : 0 < S128x128.numel
  concatenates_S400x128_S400x128_S400x256_d1 : Shape.Concatenates [S400x128, S400x128] S400x256 1
  inb_S400x256_S400x256_0_0 : ∀ a, (![0, 0] : Fin 2 → Nat) a + S400x256.size a ≤ S400x256.size a
  packedbf16_S400x256_S400x256_0_0 : (Rect.unit (s := S400x256) ![0, 0] S400x256.size inb_S400x256_S400x256_0_0).PackedRows (EltTy.packing .bf16)
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  shapeCasts_S400_S400x1 : S400.ShapeCasts S400x1
  broadcasts_S400x1_S400x40 : S400x1.Broadcasts S400x40
  inb_S400x40_S400x40_0_0 : ∀ a, (![0, 0] : Fin 2 → Nat) a + S400x40.size a ≤ S400x40.size a
  h_S400x40 : 0 < S400x40.numel
  dot_S400x10000_S10000x256_S400x256_1_0_0_1_n_n_wf : DotDims.WF S400x10000 S10000x256 S400x256 [1] [0] [0] [1] [] []
  dot_S400x128_S128x128_S400x128_1_0_0_1_n_n_wf : DotDims.WF S400x128 S128x128 S400x128 [1] [0] [0] [1] [] []
  dot_S400x128_S128x40_S400x40_1_0_0_1_n_n_wf : DotDims.WF S400x128 S128x40 S400x40 [1] [0] [0] [1] [] []
  hrank0 : 0 < grid0.rank
  k0_off1_inb : ∀ i : grid0.Coords, ∀ a, (k0_off1 i) a + S10000x256.size a ≤ S10000x256.size a
  k0_off2_inb : ∀ i : grid0.Coords, ∀ (k0_h3 : k0_cond3 i = 1#1), ∀ a, (k0_off2 i) a + S400x256.size a ≤ S10000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x256.size a ≤ S10000x256.size a
  hwx0_6 : ∀ i : grid0.Coords, EltTy.bits .bf16 = 32 ∨ (Rect.block (s := S10000x256) S400x256.size (cc0_transform_6 i) (hinb0_6 i)).WholeWords (EltTy.packing .bf16)
  hrank1 : 0 < grid1.rank
  k1_off1_inb : ∀ i : grid1.Coords, ∀ a, (k1_off1 i) a + S10000x256.size a ≤ S10000x256.size a
  k1_off2_inb : ∀ i : grid1.Coords, ∀ (k1_h3 : k1_cond3 i = 1#1), ∀ a, (k1_off2 i) a + S400x256.size a ≤ S10000x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x40.size a ≤ S10000x40.size a
  hwx1_6 : ∀ i : grid1.Coords, EltTy.bits .f32 = 32 ∨ (Rect.block (s := S10000x40) S400x40.size (cc1_transform_6 i) (hinb1_6 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x40_S400x40_1_0_0_1_n_n : DotDims S400x128 S128x40 S400x40 where
  lhsContracting := [1]
  rhsContracting := [0]
  lhsNonContracting := [0]
  rhsNonContracting := [1]
  lhsBatch := []
  rhsBatch := []
  wf := dot_S400x128_S128x40_S400x40_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13_0) S400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_1) S400x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond1 i == 1#1) && !(k0_cond2 i == 1#1) | 6 => fun i => !(k0_cond3 i == 1#1) | ⟨_ + 7, h⟩ => absurd h (Nat.not_lt.2 (Nat.le_add_left _ _))

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_1) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14_0) S400x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14_1) S400x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond1 i == 1#1) && !(k1_cond2 i == 1#1) | 6 => fun i => !(k1_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1x128 : Shape := ⟨2, ![1, 128]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 46
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S_, .f32⟩
  | .hbm, ⟨7, _⟩ => ⟨S_, .f32⟩
  | .hbm, ⟨8, _⟩ => ⟨S10000x128, .f32⟩
  | .hbm, ⟨9, _⟩ => ⟨S_, .f32⟩
  | .hbm, ⟨10, _⟩ => ⟨S_, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x40, .f32⟩
  | .hbm, ⟨28, _⟩ => ⟨S1x40, .f32⟩
  | .hbm, ⟨29, _⟩ => ⟨S10000x40, .f32⟩
  | .hbm, ⟨30, _⟩ => ⟨S10000x40, .f32⟩
  | .hbm, ⟨31, _⟩ => ⟨S_, .f32⟩
  | .hbm, ⟨32, _⟩ => ⟨S10000, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S10000x1, .f32⟩
  | .hbm, ⟨37, _⟩ => ⟨S10000x40, .f32⟩
  | .hbm, ⟨38, _⟩ => ⟨S10000x40, .f32⟩
  | .hbm, ⟨39, _⟩ => ⟨S10000x40, .f32⟩
  | .hbm, ⟨40, _⟩ => ⟨S_, .f32⟩
  | .hbm, ⟨41, _⟩ => ⟨S10000, .f32⟩
  | .hbm, ⟨42, _⟩ => ⟨S10000x1, .f32⟩
  | .hbm, ⟨43, _⟩ => ⟨S10000x1, .f32⟩
  | .hbm, ⟨44, _⟩ => ⟨S10000x40, .f32⟩
  | .hbm, ⟨45, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_cst_1 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_v19 : Ref sig .tc := ⟨.hbm, 45, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  dot_S10000x128_S128x40_S10000x40_1_0_0_1_n_n_wf : DotDims.WF S10000x128 S128x40 S10000x40 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.Spec.lean ====
/-
  Two graph-isomorphism layers over a dense adjacency matrix, written once as functions of the argument arrays over the
  extended reals. For node features `f` the neighbourhood sum is `(A · f)(r, j) = Σ_k A(r, k) · f(k, j)`; a layer's linear
  part is `((1 + ε) · f + A · f) · W + b`; the first layer ends in `max(·, 0)`, the second in a row-wise log-softmax
  `u_j − m − log Σ_k exp(u_k − m)` with `m` the row's maximum. The three results both programs return are the
  log-softmax rows and the two neighbourhood sums `A · x` and `A · h`.
  Also here: what "an entry is a real number" means (`IsReal`), and that sums, products, maxima of real entries are real;
  a real entry minus itself is zero, which is what makes the split of a value into "itself" and "its remainder" exact.
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx
open scoped BigOperators

/-! ## The literals both programs spell: 1.0, 0.0 and −∞ as f32 words -/

abbrev lit1 : EReal := Ideal.ofBits .f32 0x3F800000#32
abbrev lit0 : EReal := Ideal.ofBits .f32 0x00000000#32
abbrev litNegInf : EReal := Ideal.ofBits .f32 0xFF800000#32

theorem lit0_eq : lit0 = 0 := Ideal.ofBits_zero_f32
theorem lit1_eq : lit1 = ((1 : ℝ) : EReal) := by
  simp [lit1, Ideal.ofBits, Ideal.ieee, -EReal.coe_mul]
  norm_num
theorem litNegInf_eq : litNegInf = ⊥ := by
  simp [litNegInf, Ideal.ofBits, Ideal.ieee]

/-! ## Arrays from functions of coordinates -/

/-- The rank-2 array whose entry at `(a, b)` is `f a b`. -/
abbrev arr2 {n0 n1 : Nat} (f : Fin n0 → Fin n1 → EReal) : (⟨2, ![n0, n1]⟩ : Shape).Idx → EReal :=
  fun i => f ⟨(i 0).val, (i 0).isLt⟩ ⟨(i 1).val, (i 1).isLt⟩

theorem arr2_ix2 {n0 n1 : Nat} (f : Fin n0 → Fin n1 → EReal) (a : Fin n0) (b : Fin n1) : arr2 f (ix2 a b) = f a b := rfl

/-! ## The layers -/

/-- The neighbourhood sum `(A · f)(r, j) = Σ_k A(r, k) · f(k, j)` over the 10000 nodes. -/
def agg (A : (⟨2, ![10000, 10000]⟩ : Shape).Idx → EReal) (f : (⟨2, ![10000, 128]⟩ : Shape).Idx → EReal) (r : Fin 10000) (j : Fin 128) : EReal :=
  ∑ k : Fin 10000, A (ix2 r k) * f (ix2 k j)

/-- A layer's linear part at node `r`, output channel `j`: `Σ_k ((1 + ε) · f(r, k) + (A · f)(r, k)) · W(k, j) + b(j)`. -/
def lin {C : Nat} (e : (⟨0, ![]⟩ : Shape).Idx → EReal) (f : (⟨2, ![10000, 128]⟩ : Shape).Idx → EReal)
    (A : (⟨2, ![10000, 10000]⟩ : Shape).Idx → EReal) (W : (⟨2, ![128, C]⟩ : Shape).Idx → EReal) (b : (⟨1, ![C]⟩ : Shape).Idx → EReal)
    (r : Fin 10000) (j : Fin C) : EReal :=
  (∑ k : Fin 128, ((lit1 + e ix0) * f (ix2 r k) + agg A f r k) * W (ix2 k j)) + b (ix1 j)

/-- The hidden features: the first layer's linear part, clipped below at zero. -/
def hid (e : (⟨0, ![]⟩ : Shape).Idx → EReal) (x : (⟨2, ![10000, 128]⟩ : Shape).Idx → EReal)
    (A : (⟨2, ![10000, 10000]⟩ : Shape).Idx → EReal) (W : (⟨2, ![128, 128]⟩ : Shape).Idx → EReal) (b : (⟨1, ![128]⟩ : Shape).Idx → EReal)
    (r : Fin 10000) (j : Fin 128) : EReal :=
  max (lin e x A W b r j) lit0

/-- A row's maximum over its 40 classes, folded from −∞. -/
def rowMax (u : Fin 40 → EReal) : EReal := (Finset.univ : Finset (Fin 40)).fold max litNegInf u

/-- The log-softmax of a row: `u_j − m − log Σ_k exp(u_k − m)`, `m` the row's maximum. -/
def logSoftmax (u : Fin 40 → EReal) (j : Fin 40) : EReal :=
  (u j - rowMax u) - Ideal.log (∑ k : Fin 40, Ideal.exp (u k - rowMax u))

/-! ## Real entries -/

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.max {a b : EReal} (ha : IsReal a) (hb : IsReal b) : IsReal (max a b) := by
  rcases max_choice a b with h | h <;> rw [h] <;> assumption

theorem IsReal.zero : IsReal 0 := ⟨0, rfl⟩
theorem IsReal.lit0 : IsReal lit0 := lit0_eq ▸ IsReal.zero
theorem IsReal.lit1 : IsReal lit1 := ⟨1, lit1_eq⟩

theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A real number minus itself is zero (at ±∞ it is not). -/
theorem IsReal.sub_self {a : EReal} (ha : IsReal a) : a - a = 0 := by
  obtain ⟨r, rfl⟩ := ha
  rw [← EReal.coe_sub, _root_.sub_self]; rfl

/-- The maximum with −∞ on the left is the other operand. -/
theorem max_litNegInf (a : EReal) : max litNegInf a = a := by rw [litNegInf_eq]; exact max_bot_left a

/-! ## Real inputs give real layers -/

section
variable (e : (⟨0, ![]⟩ : Shape).Idx → EReal) (f : (⟨2, ![10000, 128]⟩ : Shape).Idx → EReal)
  (A : (⟨2, ![10000, 10000]⟩ : Shape).Idx → EReal)

theorem agg_real (hA : ∀ i, IsReal (A i)) (hf : ∀ i, IsReal (f i)) (r : Fin 10000) (j : Fin 128) : IsReal (agg A f r j) :=
  IsReal.sum _ _ fun k _ => (hA _).mul (hf _)

theorem lin_real {C : Nat} (W : (⟨2, ![128, C]⟩ : Shape).Idx → EReal) (b : (⟨1, ![C]⟩ : Shape).Idx → EReal)
    (he : ∀ i, IsReal (e i)) (hf : ∀ i, IsReal (f i)) (hA : ∀ i, IsReal (A i)) (hW : ∀ i, IsReal (W i)) (hb : ∀ i, IsReal (b i))
    (r : Fin 10000) (j : Fin C) : IsReal (lin e f A W b r j) :=
  (IsReal.sum _ _ fun k _ => (((IsReal.lit1.add (he _)).mul (hf _)).add (agg_real f A hA hf r k)).mul (hW _)).add (hb _)

theorem hid_real (W : (⟨2, ![128, 128]⟩ : Shape).Idx → EReal) (b : (⟨1, ![128]⟩ : Shape).Idx → EReal)
    (he : ∀ i, IsReal (e i)) (hf : ∀ i, IsReal (f i)) (hA : ∀ i, IsReal (A i)) (hW : ∀ i, IsReal (W i)) (hb : ∀ i, IsReal (b i))
    (r : Fin 10000) (j : Fin 128) : IsReal (hid e f A W b r j) :=
  (lin_real e f A W b he hf hA hW hb r j).max IsReal.lit0
end

end Cert.Gin

end
-- ==== Proof.RefValue.lean ====
/-
  The reference program's three results are the specification's functions of its arguments.
  Each host operation's value, read at an index, is one arithmetic step on its operands read at an index; composing the
  steps in program order gives: the first product A · x is the neighbourhood sum of x; the value after the clip at zero
  is the hidden features h; the second product A · h is the neighbourhood sum of h; and the last value is the row-wise
  log-softmax of the second layer's linear part. The only operation not one element of its operand is the reduce with a
  maximum body over the 40 classes: from −∞ it is the fold of max over the row, the row maximum; the reference then takes
  max(−∞, ·) of it once more, which changes nothing. The float sum over the 40 classes starts from 0.0, which adds nothing.
-/
import proofs.«178551_g62586263437736_cont_9to1_m_674_6_alg».proof.Proof.Spec
import proofs.«178551_g62586263437736_cont_9to1_m_674_6_alg».proof.Proof.RefRead
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx Cert.Gin
open scoped BigOperators

variable (x : FVec Ideal S10000x128 .f32) (A : FVec Ideal S10000x10000 .f32) (W1 : FVec Ideal S128x128 .f32)
  (b1 : FVec Ideal S128 .f32) (W2 : FVec Ideal S128x40 .f32) (b2 : FVec Ideal S40 .f32) (e1 e2 : FVec Ideal S_ .f32)

/-! ## The neighbourhood sum -/

/-- A contraction of A's row r with column j of f over the 10000 nodes, written with the indices a product stage reads at, is the neighbourhood sum at (r, j). -/
theorem agg_at (f : FVec Ideal S10000x128 .f32) (r : Fin 10000) (j : Fin 128) :
    ∑ k : Fin 10000, A (ReadP.lidx_main_v0 (ix2 r j) k) * f (ReadP.ridx_main_v0 (ix2 r j) k) = agg A f r j := by
  unfold agg
  refine Finset.sum_congr rfl fun k _ => ?_
  have hl : ReadP.lidx_main_v0 (ix2 r j) k = ix2 r k := funext fun a => by
    match a with
    | ⟨0, _⟩ => rfl
    | ⟨1, _⟩ => rfl
  have hr : ReadP.ridx_main_v0 (ix2 r j) k = ix2 k j := funext fun a => by
    match a with
    | ⟨0, _⟩ => rfl
    | ⟨1, _⟩ => rfl
  rw [hl, hr]

theorem fp1_eq : ReadP.val_main_v0 (F := Ideal) x A = Cert.Gin.arr2 (Cert.Gin.agg A x) := by
  funext i
  obtain ⟨r, j, rfl⟩ : ∃ (r : Fin 10000) (j : Fin 128), i = ix2 r j := ⟨i 0, i 1, eq_ix2 i⟩
  rw [ReadP.val_main_v0_apply]
  exact agg_at A x r j

/-! ## The first layer -/

/-- The operand of the first layer's weight product at (r, k): (1 + ε₁) · x(r, k) + (A · x)(r, k). -/
theorem v4_at (r : Fin 10000) (k : Fin 128) :
    ReadP.val_main_v4 (F := Ideal) x A e1 (ix2 r k) = (lit1 + e1 ix0) * x (ix2 r k) + agg A x r k := by
  rw [ReadP.val_main_v4_apply, ReadP.val_main_v3_apply, ReadP.val_main_v2_apply, ReadP.val_main_v1_apply,
    ReadP.val_main_cst_apply, fp1_eq]
  rfl

/-- The value before the clip is the first layer's linear part. -/
theorem lin1_eq : ReadP.val_main_v8 (F := Ideal) x A W1 b1 e1 = arr2 (lin e1 x A W1 b1) := by
  funext i
  obtain ⟨r, j, rfl⟩ : ∃ (r : Fin 10000) (j : Fin 128), i = ix2 r j := ⟨i 0, i 1, eq_ix2 i⟩
  rw [ReadP.val_main_v8_apply, ReadP.val_main_v5_apply, ReadP.val_main_v7_apply, ReadP.val_main_v6_apply]
  have hl : ∀ k : Fin 128, ReadP.lidx_main_v5 (ix2 r j) k = ix2 r k := fun k => funext fun a => by
    match a with
    | ⟨0, _⟩ => rfl
    | ⟨1, _⟩ => rfl
  have hr : ∀ k : Fin 128, ReadP.ridx_main_v5 (ix2 r j) k = ix2 k j := fun k => funext fun a => by
    match a with
    | ⟨0, _⟩ => rfl
    | ⟨1, _⟩ => rfl
  have hb : ReadP.idx_main_v6 (ReadP.idx_main_v7 (ix2 r j)) = ix1 j := funext fun a => by
    match a with
    | ⟨0, _⟩ => rfl
  simp only [hl, hr, hb, v4_at]
  rfl

theorem hid_eq : ReadP.val_main_v9 (F := Ideal) x A W1 b1 e1 = Cert.Gin.arr2 (Cert.Gin.hid e1 x A W1 b1) := by
  funext i
  rw [ReadP.val_main_v9_apply, lin1_eq, ReadP.val_main_call0_v0_apply, ReadP.val_main_call0_cst_apply]
  rfl

theorem fp2_eq : ReadP.val_main_v10 (F := Ideal) x A W1 b1 e1 = Cert.Gin.arr2 (Cert.Gin.agg A (Cert.Gin.arr2 (Cert.Gin.hid e1 x A W1 b1))) := by
  funext i
  obtain ⟨r, j, rfl⟩ : ∃ (r : Fin 10000) (j : Fin 128), i = ix2 r j := ⟨i 0, i 1, eq_ix2 i⟩
  rw [ReadP.val_main_v10_apply, hid_eq]
  exact agg_at A _ r j

/-! ## The second layer's linear part -/

/-- The operand of the second layer's weight product at (r, k): (1 + ε₂) · h(r, k) + (A · h)(r, k). -/
theorem v14_at (r : Fin 10000) (k : Fin 128) :
    ReadP.val_main_v14 (F := Ideal) x A W1 b1 e1 e2 (ix2 r k)
      = (lit1 + e2 ix0) * arr2 (hid e1 x A W1 b1) (ix2 r k) + agg A (arr2 (hid e1 x A W1 b1)) r k := by
  rw [ReadP.val_main_v14_apply, ReadP.val_main_v13_apply, ReadP.val_main_v12_apply, ReadP.val_main_v11_apply,
    ReadP.val_main_cst_0_apply, fp2_eq, hid_eq]
  rfl

/-- The value the log-softmax is applied to is the second layer's linear part over the hidden features. -/
theorem lin2_eq : ReadP.val_main_v18 (F := Ideal) x A W1 b1 W2 b2 e1 e2
    = arr2 (lin e2 (arr2 (hid e1 x A W1 b1)) A W2 b2) := by
  funext i
  obtain ⟨r, j, rfl⟩ : ∃ (r : Fin 10000) (j : Fin 40), i = ix2 r j := ⟨i 0, i 1, eq_ix2 i⟩
  rw [ReadP.val_main_v18_apply, ReadP.val_main_v15_apply, ReadP.val_main_v17_apply, ReadP.val_main_v16_apply]
  have hl : ∀ k : Fin 128, ReadP.lidx_main_v15 (ix2 r j) k = ix2 r k := fun k => funext fun a => by
    match a with
    | ⟨0, _⟩ => rfl
    | ⟨1, _⟩ => rfl
  have hr : ∀ k : Fin 128, ReadP.ridx_main_v15 (ix2 r j) k = ix2 k j := fun k => funext fun a => by
    match a with
    | ⟨0, _⟩ => rfl
    | ⟨1, _⟩ => rfl
  have hb : ReadP.idx_main_v16 (ReadP.idx_main_v17 (ix2 r j)) = ix1 j := funext fun a => by
    match a with
    | ⟨0, _⟩ => rfl
  simp only [hl, hr, hb, v14_at]
  rfl

/-! ## The reduce with a maximum body over the classes -/

/-- The reduced index r with class k put back on axis 1 is (r, k). -/
theorem lift_class (h : S10000x40.Reduces [1] S10000) (r : Fin 10000) (k : Fin (S10000x40.size 1)) :
    h.lift (ix1 r) k = ix2 r (⟨k.val, k.isLt⟩ : Fin 40) := by
  funext c
  apply Fin.ext
  match c with
  | ⟨0, _⟩ => rfl
  | ⟨1, _⟩ => rfl

/-- From −∞, the host's reduce with a maximum body over axis 1, at row r, is the fold of max over the row: the row's maximum. -/
theorem reduceMax_at (y : FVec Ideal S10000x40 .f32) (r : Fin 10000) :
    Host.reduce FloatOps.maximumf y (constant (F := Ideal) S_ .f32 0xFF800000#32) reducesTo_S10000x40_S10000_d1 h_S_ (ix1 r)
      = rowMax fun k => y (ix2 r k) := by
  have hr : S10000x40.Reduces [1] S10000 :=
    ⟨reducesTo_S10000x40_S10000_d1.1, Nat.one_pos, reducesTo_S10000x40_S10000_d1.2⟩
  rw [Host.reduce_eq_fold_single FloatOps.maximumf y _ reducesTo_S10000x40_S10000_d1 hr h_S_]
  have hf : (y ∘ hr.lift (ix1 r)) = fun k : Fin 40 => y (ix2 r k) := funext fun k => congrArg y (lift_class hr r k)
  exact congrArg (fun f => Finset.fold max litNegInf f (Finset.univ : Finset (Fin 40))) hf

/-! ## The log-softmax, over any rows u with the softmax's operand equal to them -/

section softmax
variable (u : Fin 10000 → Fin 40 → EReal) (h18 : ReadP.val_main_v18 (F := Ideal) x A W1 b1 W2 b2 e1 e2 = arr2 u)
include h18

/-- The maximum the reference subtracts, max(−∞, reduce), at row r is the row's maximum. -/
theorem max_at (r : Fin 10000) :
    ReadP.val_main_call1_v2 (F := Ideal) x A W1 b1 W2 b2 e1 e2 (ix1 r) = rowMax (u r) := by
  rw [ReadP.val_main_call1_v2_apply, ReadP.val_main_call1_v1_apply, ReadP.val_main_call1_cst_0_apply]
  unfold ReadP.val_main_call1_v0 ReadP.val_main_call1_cst
  rw [h18, reduceMax_at]
  exact max_litNegInf _

/-- The shifted entry u(r, j) − m(r). -/
theorem shift_at (r : Fin 10000) (j : Fin 40) :
    ReadP.val_main_call1_v5 (F := Ideal) x A W1 b1 W2 b2 e1 e2 (ix2 r j) = u r j - rowMax (u r) := by
  rw [ReadP.val_main_call1_v5_apply, ReadP.val_main_call1_v4_apply, ReadP.val_main_call1_v3_apply, h18]
  have hi : ReadP.idx_main_call1_v3 (ReadP.idx_main_call1_v4 (ix2 r j)) = ix1 r := funext fun a => by
    match a with
    | ⟨0, _⟩ => rfl
  rw [hi, max_at x A W1 b1 W2 b2 e1 e2 u h18 r]
  rfl

/-- The float sum of the exponentials of the shifted row, started from 0.0. -/
theorem sumExp_at (r : Fin 10000) :
    ReadP.val_main_call1_v7 (F := Ideal) x A W1 b1 W2 b2 e1 e2 (ix1 r) = ∑ k : Fin 40, Ideal.exp (u r k - rowMax (u r)) := by
  rw [ReadP.val_main_call1_v7_apply, ReadP.val_main_call1_cst_1_apply]
  have hi : ∀ k : Fin 40, ReadP.idx_main_call1_v7 (ix1 r) k = ix2 r k := fun k => funext fun a => by
    match a with
    | ⟨0, _⟩ => rfl
    | ⟨1, _⟩ => rfl
  simp only [hi, ReadP.val_main_call1_v6_apply, shift_at x A W1 b1 W2 b2 e1 e2 u h18, Ideal.hostUnary_exp_def]
  show lit0 + _ = _
  rw [lit0_eq, zero_add]

/-- The logarithm of that sum, broadcast back along the classes. -/
theorem logSum_at (r : Fin 10000) (j : Fin 40) :
    ReadP.val_main_call1_v10 (F := Ideal) x A W1 b1 W2 b2 e1 e2 (ix2 r j)
      = Ideal.log (∑ k : Fin 40, Ideal.exp (u r k - rowMax (u r))) := by
  rw [ReadP.val_main_call1_v10_apply, ReadP.val_main_call1_v9_apply, ReadP.val_main_call1_v8_apply]
  have hi : ReadP.idx_main_call1_v8 (ReadP.idx_main_call1_v10 (ix2 r j)) = ix1 r := funext fun a => by
    match a with
    | ⟨0, _⟩ => rfl
  rw [hi, sumExp_at x A W1 b1 W2 b2 e1 e2 u h18 r]
  rfl

/-- The last value is the log-softmax of the rows. -/
theorem softmax_eq : ReadP.val_main_v19 (F := Ideal) x A W1 b1 W2 b2 e1 e2 = arr2 (fun r j => logSoftmax (u r) j) := by
  funext i
  obtain ⟨r, j, rfl⟩ : ∃ (r : Fin 10000) (j : Fin 40), i = ix2 r j := ⟨i 0, i 1, eq_ix2 i⟩
  rw [ReadP.val_main_v19_apply, shift_at x A W1 b1 W2 b2 e1 e2 u h18, logSum_at x A W1 b1 W2 b2 e1 e2 u h18]
  rfl

end softmax

theorem res_eq : ReadP.val_main_v19 (F := Ideal) x A W1 b1 W2 b2 e1 e2 = Cert.Gin.arr2 (fun r j => Cert.Gin.logSoftmax (Cert.Gin.lin e2 (Cert.Gin.arr2 (Cert.Gin.hid e1 x A W1 b1)) A W2 b2 r) j) :=
  softmax_eq x A W1 b1 W2 b2 e1 e2 _ (lin2_eq x A W1 b1 W2 b2 e1 e2)

end Cert.ReferenceIdeal.RefValue

end
-- ==== Proof.BlockSpec.lean ====
/-
  The same layer written over a range of node rows (a block of 400, or all 10000), as the kernels compute it. A feature operand is carried as two
  halves side by side, `[f | f − f]` (256 columns): the value and its remainder after the value is taken off, which is zero for
  a real value. Over a block, the neighbourhood sum contracts the adjacency slab with the left half; the linear part reads
  the block's own rows as left half plus right half.
-/
import proofs.«178551_g62586263437736_cont_9to1_m_674_6_alg».proof.Proof.Spec

noncomputable section

namespace Cert.Gin

open Idealize.ShloMosaic Idealize.ShloMosaic.ValueIdx
open scoped BigOperators

/-- Column `q` of the left half of a 256-column operand. -/
abbrev lo (q : Fin 128) : Fin 256 := ⟨q.val, by have := q.isLt; omega⟩
/-- Column `q` of the right half. -/
abbrev hi (q : Fin 128) : Fin 256 := ⟨128 + q.val, by have := q.isLt; omega⟩

/-- The two-halves array of `h`: `h` on the left, `h − h` on the right. -/
def splitArr {n : Nat} (h : Fin n → Fin 128 → EReal) : (⟨2, ![n, 256]⟩ : Shape).Idx → EReal :=
  fun i => if hlt : (i 1).val < 128 then h ⟨(i 0).val, (i 0).isLt⟩ ⟨(i 1).val, hlt⟩
    else h ⟨(i 0).val, (i 0).isLt⟩ ⟨(i 1).val - 128, by have : (i 1).val < 256 := (i 1).isLt; omega⟩
       - h ⟨(i 0).val, (i 0).isLt⟩ ⟨(i 1).val - 128, by have : (i 1).val < 256 := (i 1).isLt; omega⟩

theorem splitArr_lo {n : Nat} (h : Fin n → Fin 128 → EReal) (r : Fin n) (q : Fin 128) : splitArr h (ix2 r (lo q)) = h r q := by
  unfold splitArr
  rw [dif_pos (show ((ix2 r (lo q) : (⟨2, ![n, 256]⟩ : Shape).Idx) 1).val < 128 from q.isLt)]
  rfl

theorem splitArr_hi {n : Nat} (h : Fin n → Fin 128 → EReal) (r : Fin n) (q : Fin 128) : splitArr h (ix2 r (hi q)) = h r q - h r q := by
  unfold splitArr
  rw [dif_neg (show ¬((ix2 r (hi q) : (⟨2, ![n, 256]⟩ : Shape).Idx) 1).val < 128 from by show ¬(128 + q.val < 128); omega)]
  have e : (⟨((ix2 r (hi q) : (⟨2, ![n, 256]⟩ : Shape).Idx) 1).val - 128, by show 128 + q.val - 128 < 128; have := q.isLt; omega⟩ : Fin 128) = q :=
    Fin.ext (by show 128 + q.val - 128 = q.val; omega)
  rw [e]
  rfl

/-- For real `h` the right half is zero. -/
theorem splitArr_hi_real {n : Nat} (h : Fin n → Fin 128 → EReal) (hr : ∀ r q, IsReal (h r q)) (r : Fin n) (q : Fin 128) :
    splitArr h (ix2 r (hi q)) = 0 := by rw [splitArr_hi]; exact (hr r q).sub_self

/-- The neighbourhood sum over `n` node rows: the adjacency rows `a` (n × 10000) against the left half of the operand `f2`. -/
def aggN {n : Nat} (a : (⟨2, ![n, 10000]⟩ : Shape).Idx → EReal) (f2 : (⟨2, ![10000, 256]⟩ : Shape).Idx → EReal) (p : Fin n) (q : Fin 128) : EReal :=
  ∑ k : Fin 10000, a (ix2 p k) * f2 (ix2 k (lo q))

/-- The linear part over `n` node rows: scale row `s`, the rows' own two-halves features `g2` (both halves added), their
    neighbourhood sums `fp`, weights `W` and bias row `b`. -/
def linN {n C : Nat} (s : (⟨2, ![1, 128]⟩ : Shape).Idx → EReal) (g2 : (⟨2, ![n, 256]⟩ : Shape).Idx → EReal)
    (fp : (⟨2, ![n, 128]⟩ : Shape).Idx → EReal) (W : (⟨2, ![128, C]⟩ : Shape).Idx → EReal) (b : (⟨2, ![1, C]⟩ : Shape).Idx → EReal)
    (p : Fin n) (j : Fin C) : EReal :=
  (∑ k : Fin 128, (s (ix2 0 k) * (g2 (ix2 p (lo k)) + g2 (ix2 p (hi k))) + fp (ix2 p k)) * W (ix2 k j)) + b (ix2 0 j)

end Cert.Gin

end
-- ==== Proof.HostVals.lean ====
/-
  The buffers the two regions are entered with, and the buffers @main returns, as functions of the launch memory `m`, over the
  extended reals. Before the first region the host makes the two-halves operand `[x | x − x]` of the node features, the two
  scale rows `1 + ε` broadcast to 128 columns, and the two bias vectors as one-row matrices; a region writes only its two output
  arrays, so the second region finds the adjacency matrix, the second layer's weights, bias row and scale row as the host
  left them and, as its feature operand, the first region's second output. The three returned buffers are the second region's
  two outputs and the first region's neighbourhood sum.
-/
import proofs.«178551_g62586263437736_cont_9to1_m_674_6_alg».proof.Proof.Gen.KernelIdeal.Frame
import proofs.«178551_g62586263437736_cont_9to1_m_674_6_alg».proof.Proof.BlockSpec
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.HostVals

open Cert.KernelIdeal Cert.KernelIdeal.Gen Cert.Gin
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Buffers the host leaves alone, and the host's three layout patterns read at an index -/

/-- No host operation writes the buffer: it holds what it held before them. -/
macro "host_untouched" : tactic =>
  `(tactic| exact StableHlo.after_of_forall_not_mem _ _ (List.forall_iff_forall_mem.mp (by
      simp only [hostOps0, List.Forall, StableHlo.nullary_writes, StableHlo.unary_writes, StableHlo.binary_writes,
        StableHlo.reshape_writes, Finset.mem_singleton]
      repeat' apply And.intro
      all_goals exact StableHlo.devRef_ne_of_ne (by decide))))

/-- The concatenation along the columns of `x` and of `x` less itself — narrowing and widening change nothing over the
    extended reals — is the two-halves array of `x`: a column below 128 falls in the first piece, at the same coordinates;
    a column from 128 on falls in the second, 128 columns to the left. -/
theorem twoHalves_apply (x : FVec Ideal S10000x128 .f32) (i : S10000x256.Idx) :
    concatenate S10000x256 1
      [⟨S10000x128, (truncf .bf16 x bitsLt_bf16_f32 : FVec Ideal S10000x128 .bf16)⟩,
       ⟨S10000x128, (truncf .bf16 (subf x (extf .f32 (truncf .bf16 x bitsLt_bf16_f32 : FVec Ideal S10000x128 .bf16) bitsLt_bf16_f32)) bitsLt_bf16_f32 : FVec Ideal S10000x128 .bf16)⟩]
      concatenates_S10000x128_S10000x128_S10000x256_d1 i
    = splitArr (n := 10000) (fun r q => x (ix2 r q)) i := by
  unfold splitArr
  by_cases h : (i 1).val < 128
  · rw [dif_pos h]
    exact concatenate_pair_apply_left (t := S10000x256) (s₁ := S10000x128) (s₂ := S10000x128) (1 : Fin S10000x256.rank) _ _ _ i rfl
      (ix2 ⟨(i 0).val, (i 0).isLt⟩ ⟨(i 1).val, h⟩)
      (fun b => match b with | ⟨0, _⟩ => rfl | ⟨1, _⟩ => rfl)
  · rw [dif_neg h]
    have h2 : (i 1).val < 256 := (i 1).isLt
    exact concatenate_pair_apply_right (t := S10000x256) (s₁ := S10000x128) (s₂ := S10000x128) (1 : Fin S10000x256.rank) _ _ _ i rfl rfl
      (ix2 ⟨(i 0).val, (i 0).isLt⟩ ⟨(i 1).val - 128, by omega⟩)
      (fun b => match b with | ⟨0, _⟩ => fun _ => rfl | ⟨1, _⟩ => fun hb => absurd rfl hb)
      (by show (i 1).val - 128 + 128 = (i 1).val; omega)

/-- The scalar `1 + e` as a 1 × 1 matrix, broadcast along a row of 128 columns: every entry is `1 + e`. Both of the small
    matrix's axes have extent one, so the broadcast reads it at `(0, 0)`, and a scalar has only one index. -/
theorem scaleRow_apply (e : FVec Ideal S_ .f32) (j : S1x128.Idx) :
    broadcastInDim S1x128 ![0, 1] bcast_S1x1_S1x128_0_1
      (shapeCast S1x1 (addf (constant (F := Ideal) S_ .f32 0x3F800000#32) e) shapeCasts_S_S1x1) j = lit1 + e ix0 := by
  refine (broadcastInDim_apply _ bcast_S1x1_S1x128_0_1 _ j (ix2 (0 : Fin 1) (0 : Fin 1)) (fun a => match a with
    | ⟨0, _⟩ => by show 0 = if (1 : Nat) = 1 then 0 else (j 0).val; rw [if_pos rfl]
    | ⟨1, _⟩ => by show 0 = if (1 : Nat) = 1 then 0 else (j 1).val; rw [if_pos rfl])).trans ?_
  show (addf (constant (F := Ideal) S_ .f32 0x3F800000#32) e) (Shape.reshapeEquiv _ _) = _
  rw [eq_ix0 (Shape.reshapeEquiv _ _)]
  rfl

/-- A vector as a one-row matrix: the entry at `(0, q)` is the vector's entry at `q` (the same row-major position). -/
theorem rowOfVec_apply {a : ℕ} (x : (⟨1, ![a]⟩ : Shape).Idx → EReal) (h : (⟨1, ![a]⟩ : Shape).ShapeCasts ⟨2, ![1, a]⟩)
    (j : (⟨2, ![1, a]⟩ : Shape).Idx) : shapeCast ⟨2, ![1, a]⟩ x h j = x (ix1 ⟨(j 1).val, (j 1).isLt⟩) :=
  shapeCast_apply x h _ _ (by
    have h0 : (j 0).val < 1 := (j 0).isLt
    have hu : (j 0).val = 0 := by omega
    rw [Shape.rowMajor_val_two, Shape.rowMajor_val_one]
    show (j 1).val = (j 0).val * a + (j 1).val
    rw [hu, Nat.zero_mul, Nat.zero_add])

/-! ## Region 0's entry contents -/

theorem V1_main_arg1 (c : Dev nD) : V1 m ρ c main_arg1 = m ((c : Thread nD τ).loc main_arg1) := by
  show StableHlo.after hostOps0 (W0 m ρ c) (Proc.devRef .tc main_arg1) = W0 m ρ c (Proc.devRef .tc main_arg1)
  host_untouched
theorem V1_main_arg2 (c : Dev nD) : V1 m ρ c main_arg2 = m ((c : Thread nD τ).loc main_arg2) := by
  show StableHlo.after hostOps0 (W0 m ρ c) (Proc.devRef .tc main_arg2) = W0 m ρ c (Proc.devRef .tc main_arg2)
  host_untouched
/-- The two-halves operand of the node features. -/
theorem V1_main_v4 (c : Dev nD) :
    V1 m ρ c main_v4 = splitArr (n := 10000) (fun r q => m ((c : Thread nD τ).loc main_arg0) (ix2 r q)) := by
  have e : (V1 m ρ c main_v4 : S10000x256.Idx → EReal) = concatenate S10000x256 1
      [⟨S10000x128, (truncf .bf16 (m ((c : Thread nD τ).loc main_arg0) : FVec Ideal S10000x128 .f32) bitsLt_bf16_f32 : FVec Ideal S10000x128 .bf16)⟩,
       ⟨S10000x128, (truncf .bf16 (subf (m ((c : Thread nD τ).loc main_arg0) : FVec Ideal S10000x128 .f32) (extf .f32 (truncf .bf16 (m ((c : Thread nD τ).loc main_arg0) : FVec Ideal S10000x128 .f32) bitsLt_bf16_f32 : FVec Ideal S10000x128 .bf16) bitsLt_bf16_f32)) bitsLt_bf16_f32 : FVec Ideal S10000x128 .bf16)⟩]
      concatenates_S10000x128_S10000x128_S10000x256_d1 := by
    dsimp only [V1, W1, hostOps0]; after_results
  refine e.trans ?_
  funext i
  exact twoHalves_apply _ i
/-- The first layer's scale row: `1 + ε₁` in every column. -/
theorem V1_main_v7 (c : Dev nD) : V1 m ρ c main_v7 = fun _ => lit1 + m ((c : Thread nD τ).loc main_arg6) ix0 := by
  have e : (V1 m ρ c main_v7 : S1x128.Idx → EReal) = broadcastInDim S1x128 ![0, 1] bcast_S1x1_S1x128_0_1
      (shapeCast S1x1 (addf (constant (F := Ideal) S_ .f32 0x3F800000#32) (m ((c : Thread nD τ).loc main_arg6) : FVec Ideal S_ .f32)) shapeCasts_S_S1x1) := by
    dsimp only [V1, W1, hostOps0]; after_results; rfl
  refine e.trans ?_
  funext j
  exact scaleRow_apply _ j
/-- The first layer's bias as a one-row matrix. -/
theorem V1_main_v11 (c : Dev nD) :
    V1 m ρ c main_v11 = fun i => m ((c : Thread nD τ).loc main_arg3) (ix1 ⟨(i 1).val, (i 1).isLt⟩) := by
  have e : (V1 m ρ c main_v11 : S1x128.Idx → EReal) = shapeCast S1x128 (m ((c : Thread nD τ).loc main_arg3) : S128.Idx → EReal) shapeCasts_S128_S1x128 := by
    dsimp only [V1, W1, hostOps0]; after_results; rfl
  refine e.trans ?_
  funext j
  exact rowOfVec_apply _ _ j

/-! ## Region 1's entry contents

The first region writes only its two outputs. A buffer that is none of its seven arrays is as the host left it; the
adjacency matrix is one of its input arrays, and an input array leaves a region as it entered. -/

theorem V2_main_arg1 (c : Dev nD) : V2 m ρ c main_arg1 = m ((c : Thread nD τ).loc main_arg1) :=
  calc W2 m ρ c (Proc.devRef .tc main_arg1)
    _ = W1 m ρ c (Proc.devRef .tc main_arg1) := (W2_arr m ρ c 0).trans (((dat0 (V1 m ρ) c).arrAt_in 0 rfl _).trans (A_eq0 (V1 m ρ) c 0))
    _ = m ((c : Thread nD τ).loc main_arg1) := V1_main_arg1 m ρ c
theorem V2_main_arg4 (c : Dev nD) : V2 m ρ c main_arg4 = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by host_untouched
    _ = m ((c : Thread nD τ).loc main_arg4) := rfl
/-- The second layer's scale row: `1 + ε₂` in every column. -/
theorem V2_main_v10 (c : Dev nD) : V2 m ρ c main_v10 = fun _ => lit1 + m ((c : Thread nD τ).loc main_arg7) ix0 := by
  have e : (W1 m ρ c (Proc.devRef .tc main_v10) : S1x128.Idx → EReal) = broadcastInDim S1x128 ![0, 1] bcast_S1x1_S1x128_0_1
      (shapeCast S1x1 (addf (constant (F := Ideal) S_ .f32 0x3F800000#32) (m ((c : Thread nD τ).loc main_arg7) : FVec Ideal S_ .f32)) shapeCasts_S_S1x1) := by
    dsimp only [W1, hostOps0]; after_results; rfl
  refine (W2_of_ne m ρ c main_v10 (by decide)).trans (e.trans ?_)
  funext j
  exact scaleRow_apply _ j
/-- The second layer's bias as a one-row matrix. -/
theorem V2_main_v12 (c : Dev nD) :
    V2 m ρ c main_v12 = fun i => m ((c : Thread nD τ).loc main_arg5) (ix1 ⟨(i 1).val, (i 1).isLt⟩) := by
  have e : (W1 m ρ c (Proc.devRef .tc main_v12) : S1x40.Idx → EReal) = shapeCast S1x40 (m ((c : Thread nD τ).loc main_arg5) : S40.Idx → EReal) shapeCasts_S40_S1x40 := by
    dsimp only [W1, hostOps0]; after_results; rfl
  refine (W2_of_ne m ρ c main_v12 (by decide)).trans (e.trans ?_)
  funext j
  exact rowOfVec_apply _ _ j
/-- The second region's feature operand is the first region's second output. -/
theorem V2_main_v13_1 (c : Dev nD) : V2 m ρ c main_v13_1 = (dat0 (V1 m ρ) c).arrAt 6 cfg0.N :=
  W2_arr m ρ c 6

/-! ## The returned buffers -/

theorem W3_main_v14_1 (c : Dev nD) : W3 m ρ c (Proc.devRef .tc main_v14_1) = (dat1 (V2 m ρ) c).arrAt 6 cfg1.N :=
  W3_arr m ρ c 6
theorem W3_main_v14_0 (c : Dev nD) : W3 m ρ c (Proc.devRef .tc main_v14_0) = (dat1 (V2 m ρ) c).arrAt 5 cfg1.N :=
  W3_arr m ρ c 5
theorem W3_main_v13_0 (c : Dev nD) : W3 m ρ c (Proc.devRef .tc main_v13_0) = (dat0 (V1 m ρ) c).arrAt 5 cfg0.N :=
  (W3_of_ne m ρ c main_v13_0 (by decide)).trans (W2_arr m ρ c 5)

end Cert.KernelIdeal.HostVals

end
-- ==== Proof.Body.lean ====
/-
  What each kernel body leaves in its output blocks, for any float family: both bodies make one covering store per output
  block, so the block after the body is that store's payload — a pure function of the blocks the body loaded. The
  neighbourhood-sum block is a function of the adjacency slab and the whole feature operand; the second block reads the
  400 node rows of the feature operand that belong to the point, the scale and bias rows, the weights, and the
  neighbourhood-sum block the body has just stored.
-/
import proofs.«178551_g62586263437736_cont_9to1_m_674_6_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-! ## Region 0: what the body leaves in its two output blocks, as the payloads of its loads -/

/-- The second grid coordinate ranges over one value, so the row offset `(i 1) · 10000` of the feature operand's load is zero. -/
theorem off0_zero (i : grid0.Coords) :
    (![BitVec.toNat (Scalar.indexCast (Scalar.muli (BitVec.ofNat 32 ↑(i 1)) 10000#32)), 0] : Fin 2 → Nat) = fun _ => 0 := by
  have h1 : ((i 1 : Fin _) : Nat) = 0 := by have := (i 1).isLt; simpa using this
  funext a; fin_cases a
  · show BitVec.toNat (Scalar.indexCast (Scalar.muli (BitVec.ofNat 32 ↑(i 1)) 10000#32)) = 0
    rw [h1]; rfl
  · rfl

/-- The neighbourhood-sum block: the one covering store's payload over the adjacency slab and the whole feature operand. -/
theorem out0_5_eq (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S400x256 .bf16) (harg8 : arg8.IsWhole) (hc0 : cond0_0 i) (hc1 : ¬cond0_1 i) (hc2 : cond0_2 i)
    (x0 : Vec F S400x10000 .f32) (x1 : Vec F S10000x256 .bf16) (x2 : Vec F S128x128 .f32) (x3 : Vec F S1x128 .f32) (x4 : Vec F S1x128 .f32) :
    out0_A_5 c i arg2 harg2 arg3 harg3 arg4 harg4 arg5 harg5 arg6 harg6 arg7 harg7 arg8 harg8 hc0 hc1 hc2 x0 x1 x2 x3 x4 = k0_pay1 x0 x1 := by
  unfold out0_A_5
  rw [View.read_writes_eq_canon _ _ _ (cover0_A_5 c i arg2 harg2 arg3 harg3 arg4 harg4 arg5 harg5 arg6 harg6 arg7 harg7 arg8 harg8 hc0 hc1 hc2 x0 x1 x2 x3 x4)]
  unfold kernelRun0_A
  dsimp only
  sl_unfold_words
  rw [View.canon_unit_zero hz]
  simp only [View.readAt_eq_ld, harg2.read_unread, harg3.read_unread, View.ld_unit_zero (S := S400x10000) hz]
  exact congrArg (k0_pay1 x0) (View.ld_unit_zero (S := S10000x256) (off0_zero i) _ x1)

/-- The second output block: the payload over the node rows `[400·i₀, 400·i₀ + 400)` of the feature operand, the scale row,
    the neighbourhood-sum block just stored (read back), the weights and the bias row. -/
theorem out0_6_eq (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S400x256 .bf16) (harg8 : arg8.IsWhole) (hc0 : cond0_0 i) (hc1 : ¬cond0_1 i) (hc2 : cond0_2 i)
    (x0 : Vec F S400x10000 .f32) (x1 : Vec F S10000x256 .bf16) (x2 : Vec F S128x128 .f32) (x3 : Vec F S1x128 .f32) (x4 : Vec F S1x128 .f32) :
    out0_A_6 c i arg2 harg2 arg3 harg3 arg4 harg4 arg5 harg5 arg6 harg6 arg7 harg7 arg8 harg8 hc0 hc1 hc2 x0 x1 x2 x3 x4 = k0_pay3 (View.ld x1 (Rect.unit (k0_off2 i) S400x256.size (k0_off2_inb i hc2))) x4 (k0_pay1 x0 x1) x2 x3 := by
  unfold out0_A_6
  rw [View.read_writes_eq_canon _ _ _ (cover0_A_6 c i arg2 harg2 arg3 harg3 arg4 harg4 arg5 harg5 arg6 harg6 arg7 harg7 arg8 harg8 hc0 hc1 hc2 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread, View.ld_unit_zero (S := S400x10000) hz, View.ld_unit_zero (S := S128x128) hz, View.ld_unit_zero (S := S1x128) hz, View.ld_unit_zero (S := S1x128) hz, View.readCov_unit_zero (S := S400x128) _ hz]
  exact congrArg (fun z => k0_pay3 _ x4 (k0_pay1 x0 z) x2 x3) (View.ld_unit_zero (S := S10000x256) (off0_zero i) _ x1)

/-! ## Region 1: what the body leaves in its two output blocks, as the payloads of its loads -/

/-- The second grid coordinate ranges over one value, so the row offset `(i 1) · 10000` of the feature operand's load is zero. -/
theorem off1_zero (i : grid1.Coords) :
    (![BitVec.toNat (Scalar.indexCast (Scalar.muli (BitVec.ofNat 32 ↑(i 1)) 10000#32)), 0] : Fin 2 → Nat) = fun _ => 0 := by
  have h1 : ((i 1 : Fin _) : Nat) = 0 := by have := (i 1).isLt; simpa using this
  funext a; fin_cases a
  · show BitVec.toNat (Scalar.indexCast (Scalar.muli (BitVec.ofNat 32 ↑(i 1)) 10000#32)) = 0
    rw [h1]; rfl
  · rfl

/-- The neighbourhood-sum block: the one covering store's payload over the adjacency slab and the whole feature operand. -/
theorem out1_5_eq (c : Dev nD) (i : grid1.Coords) (arg2 : Memref sig .tc .vmem S400x10000 .f32) (harg2 : arg2.IsWhole) (arg3 : Memref sig .tc .vmem S10000x256 .bf16) (harg3 : arg3.IsWhole) (arg4 : Memref sig .tc .vmem S128x40 .f32) (harg4 : arg4.IsWhole) (arg5 : Memref sig .tc .vmem S1x40 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S400x40 .f32) (harg8 : arg8.IsWhole) (hc0 : cond1_0 i) (hc1 : ¬cond1_1 i) (hc2 : cond1_2 i)
    (x0 : Vec F S400x10000 .f32) (x1 : Vec F S10000x256 .bf16) (x2 : Vec F S128x40 .f32) (x3 : Vec F S1x40 .f32) (x4 : Vec F S1x128 .f32) :
    out1_A_5 c i arg2 harg2 arg3 harg3 arg4 harg4 arg5 harg5 arg6 harg6 arg7 harg7 arg8 harg8 hc0 hc1 hc2 x0 x1 x2 x3 x4 = k1_pay1 x0 x1 := by
  unfold out1_A_5
  rw [View.read_writes_eq_canon _ _ _ (cover1_A_5 c i arg2 harg2 arg3 harg3 arg4 harg4 arg5 harg5 arg6 harg6 arg7 harg7 arg8 harg8 hc0 hc1 hc2 x0 x1 x2 x3 x4)]
  unfold kernelRun1_A
  dsimp only
  sl_unfold_words
  rw [View.canon_unit_zero hz]
  simp only [View.readAt_eq_ld, harg2.read_unread, harg3.read_unread, View.ld_unit_zero (S := S400x10000) hz]
  exact congrArg (k1_pay1 x0) (View.ld_unit_zero (S := S10000x256) (off1_zero i) _ x1)

/-- The second output block: the payload over the node rows `[400·i₀, 400·i₀ + 400)` of the feature operand, the scale row,
    the neighbourhood-sum block just stored (read back), the weights and the bias row. -/
theorem out1_6_eq (c : Dev nD) (i : grid1.Coords) (arg2 : Memref sig .tc .vmem S400x10000 .f32) (harg2 : arg2.IsWhole) (arg3 : Memref sig .tc .vmem S10000x256 .bf16) (harg3 : arg3.IsWhole) (arg4 : Memref sig .tc .vmem S128x40 .f32) (harg4 : arg4.IsWhole) (arg5 : Memref sig .tc .vmem S1x40 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S400x40 .f32) (harg8 : arg8.IsWhole) (hc0 : cond1_0 i) (hc1 : ¬cond1_1 i) (hc2 : cond1_2 i)
    (x0 : Vec F S400x10000 .f32) (x1 : Vec F S10000x256 .bf16) (x2 : Vec F S128x40 .f32) (x3 : Vec F S1x40 .f32) (x4 : Vec F S1x128 .f32) :
    out1_A_6 c i arg2 harg2 arg3 harg3 arg4 harg4 arg5 harg5 arg6 harg6 arg7 harg7 arg8 harg8 hc0 hc1 hc2 x0 x1 x2 x3 x4 = k1_pay3 (View.ld x1 (Rect.unit (k1_off2 i) S400x256.size (k1_off2_inb i hc2))) x4 (k1_pay1 x0 x1) x2 x3 := by
  unfold out1_A_6
  rw [View.read_writes_eq_canon _ _ _ (cover1_A_6 c i arg2 harg2 arg3 harg3 arg4 harg4 arg5 harg5 arg6 harg6 arg7 harg7 arg8 harg8 hc0 hc1 hc2 x0 x1 x2 x3 x4)]
  unfold kernelRun1_A
  dsimp only
  sl_unfold_words
  rw [View.canon_unit_zero hz]
  simp only [View.readAt_eq_ld, harg2.read_unread, harg3.read_unread, harg4.read_unread, harg5.read_unread, harg6.read_unread, View.ld_unit_zero (S := S400x10000) hz, View.ld_unit_zero (S := S128x40) hz, View.ld_unit_zero (S := S1x40) hz, View.ld_unit_zero (S := S1x128) hz, View.readCov_unit_zero (S := S400x128) _ hz]
  exact congrArg (fun z => k1_pay3 _ x4 (k1_pay1 x0 z) x2 x3) (View.ld_unit_zero (S := S10000x256) (off1_zero i) _ x1)

end Cert.KernelIdeal.Body

end
-- ==== Proof.Pay.lean ====
/-
  The kernels' payloads read at an index, over the extended reals. A neighbourhood-sum block multiplies the adjacency slab,
  split as "itself" and "itself minus itself", against the two-halves feature operand and adds the two halves of the product:
  for a real slab the remainder is zero, and where the operand's right half is zero the result is the plain contraction
  `Σ_k a(p, k) · f(k, q)`. The first layer's second block is the two-halves array of `max(linear part, 0)`; the second
  layer's is the row-wise log-softmax of the linear part.
-/
import proofs.«178551_g62586263437736_cont_9to1_m_674_6_alg».proof.Proof.Gen.KernelIdeal.Skeleton
import proofs.«178551_g62586263437736_cont_9to1_m_674_6_alg».proof.Proof.BlockSpec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Cert.Gin
open Idealize.ShloMosaic Idealize.ShloMosaic.ValueIdx
open scoped BigOperators

/-! ### The contraction `[400, 10000] · [10000, 256]` read at an index -/

theorem lhsA_0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem lhsA_1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
theorem rhsA_0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
theorem rhsA_1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- Into a zero accumulator the product at `(p, c)` is `Σ_k A(p, k) · B(k, c)`. -/
theorem mmA_apply (A : FVec Ideal S400x10000 .bf16) (B : FVec Ideal S10000x256 .bf16) (p : Fin 400) (c : Fin 256) :
    matmul dot_S400x10000_S10000x256_S400x256_1_0_0_1_n_n none A B (constant (F := Ideal) S400x256 .f32 0x00000000#32) (ix2 p c)
      = ∑ k : Fin 10000, A (ix2 p k) * B (ix2 k c) := by
  refine (Ideal.matmul_constant_zero_apply dot_S400x10000_S10000x256_S400x256_1_0_0_1_n_n none A B (ix2 p c)).trans ?_
  rw [← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 p c) ((contrEquiv1 dot_S400x10000_S10000x256_S400x256_1_0_0_1_n_n 10000 rfl rfl).symm k) = ix2 p k := funext fun a => Fin.ext (by
    match a with
    | ⟨0, _⟩ => exact lhsA_0 _ _
    | ⟨1, _⟩ => exact (lhsA_1 _ _).trans hk)
  have er : dot_S400x10000_S10000x256_S400x256_1_0_0_1_n_n.rhsIdx (ix2 p c) ((contrEquiv1 dot_S400x10000_S10000x256_S400x256_1_0_0_1_n_n 10000 rfl rfl).symm k) = ix2 k c := funext fun a => Fin.ext (by
    match a with
    | ⟨0, _⟩ => exact (rhsA_0 _ _).trans hk
    | ⟨1, _⟩ => exact rhsA_1 _ _)
  rw [el, er]

/-! ### The contraction `[400, 128] · [128, 128]` read at an index -/

theorem lhsB_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhsB_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhsB_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhsB_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Into a zero accumulator the product at `(p, c)` is `Σ_k A(p, k) · B(k, c)`. -/
theorem mmB_apply (A : FVec Ideal S400x128 .f32) (B : FVec Ideal S128x128 .f32) (p : Fin 400) (c : Fin 128) :
    matmul dot_S400x128_S128x128_S400x128_1_0_0_1_n_n none A B (constant (F := Ideal) S400x128 .f32 0x00000000#32) (ix2 p c)
      = ∑ k : Fin 128, A (ix2 p k) * B (ix2 k c) := by
  refine (Ideal.matmul_constant_zero_apply dot_S400x128_S128x128_S400x128_1_0_0_1_n_n none A B (ix2 p c)).trans ?_
  rw [← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p c) ((contrEquiv1 dot_S400x128_S128x128_S400x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S400x128_S128x128_S400x128_1_0_0_1_n_n.rhsIdx (ix2 p c) ((contrEquiv1 dot_S400x128_S128x128_S400x128_1_0_0_1_n_n 128 rfl rfl).symm k) = ix2 k c := funext fun a => Fin.ext (by
    match a with
    | ⟨0, _⟩ => exact (rhsB_0 _ _).trans hk
    | ⟨1, _⟩ => exact rhsB_1 _ _)
  rw [el, er]

/-! ### The contraction `[400, 128] · [128, 40]` read at an index -/

theorem lhsC_0 (i : S400x40.Idx) (q : dot_S400x128_S128x40_S400x40_1_0_0_1_n_n.contr.Idx) :
    (dot_S400x128_S128x40_S400x40_1_0_0_1_n_n.lhsIdx i q 0).val = (i 0).val := by
  unfold DotDims.lhsIdx
  rw [dif_neg (show ¬(0 : Fin S400x128.rank) ∈ dot_S400x128_S128x40_S400x40_1_0_0_1_n_n.lhsBatch by decide), dif_pos (show (0 : Fin S400x128.rank) ∈ dot_S400x128_S128x40_S400x40_1_0_0_1_n_n.lhsNonContracting by decide)]
  rfl
theorem lhsC_1 (i : S400x40.Idx) (q : dot_S400x128_S128x40_S400x40_1_0_0_1_n_n.contr.Idx) :
    (dot_S400x128_S128x40_S400x40_1_0_0_1_n_n.lhsIdx i q 1).val = (q ⟨0, by decide⟩).val :=
  dot_S400x128_S128x40_S400x40_1_0_0_1_n_n.lhsIdx_val_of_single rfl i q
theorem rhsC_0 (i : S400x40.Idx) (q : dot_S400x128_S128x40_S400x40_1_0_0_1_n_n.contr.Idx) :
    (dot_S400x128_S128x40_S400x40_1_0_0_1_n_n.rhsIdx i q 0).val = (q ⟨0, by decide⟩).val :=
  dot_S400x128_S128x40_S400x40_1_0_0_1_n_n.rhsIdx_val_of_single rfl i q
theorem rhsC_1 (i : S400x40.Idx) (q : dot_S400x128_S128x40_S400x40_1_0_0_1_n_n.contr.Idx) :
    (dot_S400x128_S128x40_S400x40_1_0_0_1_n_n.rhsIdx i q 1).val = (i 1).val := by
  unfold DotDims.rhsIdx
  rw [dif_neg (show ¬(1 : Fin S128x40.rank) ∈ dot_S400x128_S128x40_S400x40_1_0_0_1_n_n.rhsBatch by decide), dif_pos (show (1 : Fin S128x40.rank) ∈ dot_S400x128_S128x40_S400x40_1_0_0_1_n_n.rhsNonContracting by decide)]
  rfl

/-- Into a zero accumulator the product at `(p, c)` is `Σ_k A(p, k) · B(k, c)`. -/
theorem mmC_apply (A : FVec Ideal S400x128 .f32) (B : FVec Ideal S128x40 .f32) (p : Fin 400) (c : Fin 40) :
    matmul dot_S400x128_S128x40_S400x40_1_0_0_1_n_n none A B (constant (F := Ideal) S400x40 .f32 0x00000000#32) (ix2 p c)
      = ∑ k : Fin 128, A (ix2 p k) * B (ix2 k c) := by
  refine (Ideal.matmul_constant_zero_apply dot_S400x128_S128x40_S400x40_1_0_0_1_n_n none A B (ix2 p c)).trans ?_
  rw [← Equiv.sum_comp (contrEquiv1 dot_S400x128_S128x40_S400x40_1_0_0_1_n_n 128 rfl rfl).symm]
  refine Finset.sum_congr rfl fun k _ => ?_
  have hk := contrEquiv1_symm_val dot_S400x128_S128x40_S400x40_1_0_0_1_n_n 128 rfl rfl k
  have el : dot_S400x128_S128x40_S400x40_1_0_0_1_n_n.lhsIdx (ix2 p c) ((contrEquiv1 dot_S400x128_S128x40_S400x40_1_0_0_1_n_n 128 rfl rfl).symm k) = ix2 p k := funext fun a => Fin.ext (by
    match a with
    | ⟨0, _⟩ => exact lhsC_0 _ _
    | ⟨1, _⟩ => exact (lhsC_1 _ _).trans hk)
  have er : dot_S400x128_S128x40_S400x40_1_0_0_1_n_n.rhsIdx (ix2 p c) ((contrEquiv1 dot_S400x128_S128x40_S400x40_1_0_0_1_n_n 128 rfl rfl).symm k) = ix2 k c := funext fun a => Fin.ext (by
    match a with
    | ⟨0, _⟩ => exact (rhsC_0 _ _).trans hk
    | ⟨1, _⟩ => exact rhsC_1 _ _)
  rw [el, er]

/-! ## The neighbourhood-sum payload -/

/-- A real slab's remainder against any operand contracts to zero. -/
theorem sum_rem_zero (v0 : FVec Ideal S400x10000 .f32) (B : FVec Ideal S10000x256 .bf16) (h0 : ∀ i, IsReal (v0 i)) (p : Fin 400) (c : Fin 256) :
    ∑ k : Fin 10000, (v0 (ix2 p k) - v0 (ix2 p k)) * B (ix2 k c) = 0 :=
  Finset.sum_eq_zero fun k _ => by rw [(h0 _).sub_self, zero_mul]

/-- The sum of the two products at `(p, c)`: the plain contraction of the slab with the operand. -/
theorem v11_apply (v0 : FVec Ideal S400x10000 .f32) (v7 : FVec Ideal S10000x256 .bf16) (h0 : ∀ i, IsReal (v0 i)) (p : Fin 400) (c : Fin 256) :
    addf (matmul dot_S400x10000_S10000x256_S400x256_1_0_0_1_n_n none (truncf .bf16 v0 bitsLt_bf16_f32) (shapeCast S10000x256 v7 shapeCasts_S10000x256_S10000x256) (constant (F := Ideal) S400x256 .f32 0x00000000#32))
         (matmul dot_S400x10000_S10000x256_S400x256_1_0_0_1_n_n none (truncf .bf16 (subf v0 v0) bitsLt_bf16_f32) (shapeCast S10000x256 v7 shapeCasts_S10000x256_S10000x256) (constant (F := Ideal) S400x256 .f32 0x00000000#32)) (ix2 p c)
      = ∑ k : Fin 10000, v0 (ix2 p k) * v7 (ix2 k c) := by
  rw [shapeCast_self]
  refine (addf_apply _ _ _).trans ?_
  rw [mmA_apply, mmA_apply]
  have e : ∑ k : Fin 10000, (truncf .bf16 (subf v0 v0) bitsLt_bf16_f32 : FVec Ideal S400x10000 .bf16) (ix2 p k) * v7 (ix2 k c) = 0 :=
    sum_rem_zero v0 v7 h0 p c
  rw [e, add_zero]
  rfl

/-- The second region's neighbourhood-sum payload is the first's, word for word. -/
theorem k1_pay1_eq : @k1_pay1 Ideal _ = @k0_pay1 Ideal _ := rfl

/-! ## The linear part -/

/-- The left operand of the linear part at `(p, k)`: the scaled sum of the row's two halves plus its neighbourhood sum. -/
theorem own_apply (v26 : FVec Ideal S400x256 .bf16) (v33 : FVec Ideal S1x128 .f32) (v37 : FVec Ideal S400x128 .f32) (p : Fin 400) (k : Fin 128) :
    (addf (mulf (broadcastTo S400x128 (shapeCast S1x128 v33 shapeCasts_S1x128_S1x128) broadcasts_S1x128_S400x128)
        (addf (extf .f32 (extractStridedSlice S400x128 ![0, 0] (shapeCast S400x256 v26 shapeCasts_S400x256_S400x256) slices_S400x256_o0_0_S400x128) bitsLt_bf16_f32)
              (extf .f32 (extractStridedSlice S400x128 ![0, 128] (shapeCast S400x256 v26 shapeCasts_S400x256_S400x256) slices_S400x256_o0_128_S400x128) bitsLt_bf16_f32)))
      (shapeCast S400x128 v37 shapeCasts_S400x128_S400x128)) (ix2 p k)
      = v33 (ix2 0 k) * (v26 (ix2 p (lo k)) + v26 (ix2 p (hi k))) + v37 (ix2 p k) := by
  rw [shapeCast_self, shapeCast_self, shapeCast_self]
  show broadcastTo S400x128 v33 broadcasts_S1x128_S400x128 (ix2 p k)
      * (extractStridedSlice S400x128 ![0, 0] v26 slices_S400x256_o0_0_S400x128 (ix2 p k)
        + extractStridedSlice S400x128 ![0, 128] v26 slices_S400x256_o0_128_S400x128 (ix2 p k))
      + v37 (ix2 p k) = _
  rw [broadcastTo_1b_ab_apply,
    slice2_axis1_apply 0 v26 slices_S400x256_o0_0_S400x128 p k (lo k) (Nat.zero_add _).symm,
    slice2_axis1_apply 128 v26 slices_S400x256_o0_128_S400x128 p k (hi k) rfl]

/-- The first layer's linear part at `(p, j)`. -/
theorem lin0_apply (v26 : FVec Ideal S400x256 .bf16) (v33 : FVec Ideal S1x128 .f32) (v37 : FVec Ideal S400x128 .f32)
    (v40 : FVec Ideal S128x128 .f32) (v42 : FVec Ideal S1x128 .f32) (p : Fin 400) (j : Fin 128) :
    addf (matmul dot_S400x128_S128x128_S400x128_1_0_0_1_n_n none (addf (mulf (broadcastTo S400x128 (shapeCast S1x128 v33 shapeCasts_S1x128_S1x128) broadcasts_S1x128_S400x128)
        (addf (extf .f32 (extractStridedSlice S400x128 ![0, 0] (shapeCast S400x256 v26 shapeCasts_S400x256_S400x256) slices_S400x256_o0_0_S400x128) bitsLt_bf16_f32)
              (extf .f32 (extractStridedSlice S400x128 ![0, 128] (shapeCast S400x256 v26 shapeCasts_S400x256_S400x256) slices_S400x256_o0_128_S400x128) bitsLt_bf16_f32)))
      (shapeCast S400x128 v37 shapeCasts_S400x128_S400x128)) v40 (constant (F := Ideal) S400x128 .f32 0x00000000#32))
         (broadcastTo S400x128 (shapeCast S1x128 v42 shapeCasts_S1x128_S1x128) broadcasts_S1x128_S400x128) (ix2 p j)
      = linN v33 v26 v37 v40 v42 p j := by
  refine (addf_apply _ _ _).trans ?_
  rw [mmB_apply, broadcastTo_1b_ab_apply, shapeCast_self v42]
  unfold linN
  refine congrArg (fun x : EReal => x + v42 (ix2 0 j)) (Finset.sum_congr rfl fun k _ => ?_)
  rw [own_apply]

/-! ## The first layer's second payload -/

/-- Every column of a 256-column array is a left-half or a right-half column. -/
theorem col_cases (c : Fin 256) : (∃ q : Fin 128, c = lo q) ∨ (∃ q : Fin 128, c = hi q) := by
  by_cases h : c.val < 128
  · exact .inl ⟨⟨c.val, h⟩, Fin.ext rfl⟩
  · exact .inr ⟨⟨c.val - 128, by have := c.isLt; omega⟩, Fin.ext (by show c.val = 128 + (c.val - 128); omega)⟩

/-- The clipped linear part at `(p, q)`. -/
theorem hid0_apply (v26 : FVec Ideal S400x256 .bf16) (v33 : FVec Ideal S1x128 .f32) (v37 : FVec Ideal S400x128 .f32)
    (v40 : FVec Ideal S128x128 .f32) (v42 : FVec Ideal S1x128 .f32) (p : Fin 400) (q : Fin 128) :
    maximumf (addf (matmul dot_S400x128_S128x128_S400x128_1_0_0_1_n_n none (addf (mulf (broadcastTo S400x128 (shapeCast S1x128 v33 shapeCasts_S1x128_S1x128) broadcasts_S1x128_S400x128)
        (addf (extf .f32 (extractStridedSlice S400x128 ![0, 0] (shapeCast S400x256 v26 shapeCasts_S400x256_S400x256) slices_S400x256_o0_0_S400x128) bitsLt_bf16_f32)
              (extf .f32 (extractStridedSlice S400x128 ![0, 128] (shapeCast S400x256 v26 shapeCasts_S400x256_S400x256) slices_S400x256_o0_128_S400x128) bitsLt_bf16_f32)))
      (shapeCast S400x128 v37 shapeCasts_S400x128_S400x128)) v40 (constant (F := Ideal) S400x128 .f32 0x00000000#32))
         (broadcastTo S400x128 (shapeCast S1x128 v42 shapeCasts_S1x128_S1x128) broadcasts_S1x128_S400x128)) (broadcast S400x128 (Scalar.ofBits (F := Ideal) .f32 0x00000000#32)) (ix2 p q)
      = max (linN v33 v26 v37 v40 v42 p q) lit0 := by
  refine (maximumf_apply _ _ _).trans ?_
  rw [lin0_apply]
  rfl

/-- The left half of the payload is the clipped linear part. -/
theorem pay3_0_lo (v26 : FVec Ideal S400x256 .bf16) (v33 : FVec Ideal S1x128 .f32) (v37 : FVec Ideal S400x128 .f32)
    (v40 : FVec Ideal S128x128 .f32) (v42 : FVec Ideal S1x128 .f32) (p : Fin 400) (q : Fin 128) :
    k0_pay3 (F := Ideal) v26 v33 v37 v40 v42 (ix2 p (lo q)) = max (linN v33 v26 v37 v40 v42 p q) lit0 := by
  unfold k0_pay3
  refine (concatenate_pair_apply_left (1 : Fin S400x256.rank) _ _ concatenates_S400x128_S400x128_S400x256_d1 (ix2 p (lo q)) rfl (ix2 p q)
    (fun b => by match b with | ⟨0, _⟩ => rfl | ⟨1, _⟩ => rfl)).trans ?_
  refine (truncf_apply (φ := .f32) (ψ := .bf16) _ bitsLt_bf16_f32 _).trans ?_
  exact hid0_apply v26 v33 v37 v40 v42 p q

/-- The right half is the clipped linear part minus itself. -/
theorem pay3_0_hi (v26 : FVec Ideal S400x256 .bf16) (v33 : FVec Ideal S1x128 .f32) (v37 : FVec Ideal S400x128 .f32)
    (v40 : FVec Ideal S128x128 .f32) (v42 : FVec Ideal S1x128 .f32) (p : Fin 400) (q : Fin 128) :
    k0_pay3 (F := Ideal) v26 v33 v37 v40 v42 (ix2 p (hi q))
      = max (linN v33 v26 v37 v40 v42 p q) lit0 - max (linN v33 v26 v37 v40 v42 p q) lit0 := by
  unfold k0_pay3
  refine (concatenate_pair_apply_right (1 : Fin S400x256.rank) _ _ concatenates_S400x128_S400x128_S400x256_d1 (ix2 p (hi q)) rfl rfl (ix2 p q)
    (fun b hb => by
      match b, hb with
      | ⟨0, _⟩, _ => rfl
      | ⟨1, _⟩, hb => exact absurd rfl hb)
    (by show q.val + 128 = 128 + q.val; omega)).trans ?_
  refine (truncf_apply (φ := .f32) (ψ := .bf16) _ bitsLt_bf16_f32 _).trans ?_
  refine (subf_apply (φ := .f32) _ _ _).trans ?_
  rw [hid0_apply v26 v33 v37 v40 v42 p q]

/-! ## A vector kept as a one-column array, and the column spread back over the rows -/

/-- An `[a]` array cast to `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else c.val
    rw [if_pos rfl]

/-! ## A row's maximum and sum -/

/-- The reduced index `p` with column `k` put back is `(p, k)`. -/
theorem lift_row {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  match c with
  | ⟨0, _⟩ => rfl
  | ⟨1, _⟩ => rfl

/-- The maximum over axis 1 from −∞, at row `p`: the row's maximum. -/
theorem rowmax_apply (x : FVec Ideal S400x40 .f32) (p : Fin 400) :
    (multiReduction (F := Ideal) .maximumf [1] S400 x 0xFF800000#32 reduces_S400x40_S400 (.inl rfl) rfl) (ix1 p) = rowMax (fun k => x (ix2 p k)) := by
  refine (Ideal.multiReduction_maximumf_single x 0xFF800000#32 reduces_S400x40_S400 (.inl rfl) rfl (ix1 p)).trans ?_
  unfold rowMax
  exact congrArg (fun f => Finset.fold max litNegInf f (Finset.univ : Finset (Fin 40)))
    (funext fun k => congrArg x (lift_row reduces_S400x40_S400 p k))

/-- The sum over axis 1, at row `p`: the row's sum. -/
theorem rowsum_apply (x : FVec Ideal S400x40 .f32) (p : Fin 400) :
    multiReduction (F := Ideal) .add [1] S400 x 0x00000000#32 reduces_S400x40_S400 (.inl rfl) rfl (ix1 p) = ∑ k : Fin 40, x (ix2 p k) := by
  refine (Ideal.multiReduction_add_single x 0x00000000#32 reduces_S400x40_S400 (.inl rfl) rfl (ix1 p)).trans ?_
  exact Finset.sum_congr rfl fun k _ => congrArg x (lift_row reduces_S400x40_S400 p k)

/-- The row maximum kept as a column and broadcast back over the row. -/
theorem bmax_apply (x : FVec Ideal S400x40 .f32) (p : Fin 400) (j : Fin 40) :
    (broadcastTo S400x40 (shapeCast S400x1 (multiReduction (F := Ideal) .maximumf [1] S400 x 0xFF800000#32 reduces_S400x40_S400 (.inl rfl) rfl) shapeCasts_S400_S400x1) broadcasts_S400x1_S400x40) (ix2 p j) = rowMax (fun k => x (ix2 p k)) := by
  rw [broadcastTo_a1_ab_apply, shapeCast_a_a1_apply, rowmax_apply]

/-- The logarithm of a row's sum of exponentials, kept as a column and broadcast back over the row. -/
theorem lse_apply (y : FVec Ideal S400x40 .f32) (p : Fin 400) (j : Fin 40) :
    broadcastTo S400x40 (log (shapeCast S400x1 (multiReduction (F := Ideal) .add [1] S400 (exp y) 0x00000000#32 reduces_S400x40_S400 (.inl rfl) rfl) shapeCasts_S400_S400x1)) broadcasts_S400x1_S400x40 (ix2 p j)
      = Ideal.log (∑ k : Fin 40, Ideal.exp (y (ix2 p k))) := by
  rw [broadcastTo_a1_ab_apply]
  show Ideal.log (shapeCast S400x1 (multiReduction (F := Ideal) .add [1] S400 (exp y) 0x00000000#32 reduces_S400x40_S400 (.inl rfl) rfl) shapeCasts_S400_S400x1 (ix2 p 0)) = _
  rw [shapeCast_a_a1_apply, rowsum_apply]
  rfl

/-- The row-wise log-softmax as the kernel spells it, at `(p, j)`. -/
theorem logSoftmax_rows (x : FVec Ideal S400x40 .f32) (p : Fin 400) (j : Fin 40) :
    subf (subf x (broadcastTo S400x40 (shapeCast S400x1 (multiReduction (F := Ideal) .maximumf [1] S400 x 0xFF800000#32 reduces_S400x40_S400 (.inl rfl) rfl) shapeCasts_S400_S400x1) broadcasts_S400x1_S400x40))
      (broadcastTo S400x40 (log (shapeCast S400x1 (multiReduction (F := Ideal) .add [1] S400 (exp (subf x (broadcastTo S400x40 (shapeCast S400x1 (multiReduction (F := Ideal) .maximumf [1] S400 x 0xFF800000#32 reduces_S400x40_S400 (.inl rfl) rfl) shapeCasts_S400_S400x1) broadcasts_S400x1_S400x40))) 0x00000000#32 reduces_S400x40_S400 (.inl rfl) rfl) shapeCasts_S400_S400x1)) broadcasts_S400x1_S400x40) (ix2 p j)
      = logSoftmax (fun k => x (ix2 p k)) j := by
  have hs : ∀ k : Fin 40, subf x (broadcastTo S400x40 (shapeCast S400x1 (multiReduction (F := Ideal) .maximumf [1] S400 x 0xFF800000#32 reduces_S400x40_S400 (.inl rfl) rfl) shapeCasts_S400_S400x1) broadcasts_S400x1_S400x40) (ix2 p k) = x (ix2 p k) - rowMax (fun k => x (ix2 p k)) :=
    fun k => (subf_apply _ _ _).trans (by rw [bmax_apply])
  refine (subf_apply _ _ _).trans ?_
  rw [lse_apply, hs j]
  unfold logSoftmax
  refine congrArg (fun b : EReal => x (ix2 p j) - rowMax (fun k => x (ix2 p k)) - Ideal.log b) (Finset.sum_congr rfl fun k _ => ?_)
  rw [hs k]

/-! ## The second layer's second payload -/

/-- The second layer's linear part at `(p, j)`. -/
theorem lin1_apply (v26 : FVec Ideal S400x256 .bf16) (v33 : FVec Ideal S1x128 .f32) (v37 : FVec Ideal S400x128 .f32)
    (v40 : FVec Ideal S128x40 .f32) (v42 : FVec Ideal S1x40 .f32) (p : Fin 400) (j : Fin 40) :
    (addf (matmul dot_S400x128_S128x40_S400x40_1_0_0_1_n_n none (addf (mulf (broadcastTo S400x128 (shapeCast S1x128 v33 shapeCasts_S1x128_S1x128) broadcasts_S1x128_S400x128)
        (addf (extf .f32 (extractStridedSlice S400x128 ![0, 0] (shapeCast S400x256 v26 shapeCasts_S400x256_S400x256) slices_S400x256_o0_0_S400x128) bitsLt_bf16_f32)
              (extf .f32 (extractStridedSlice S400x128 ![0, 128] (shapeCast S400x256 v26 shapeCasts_S400x256_S400x256) slices_S400x256_o0_128_S400x128) bitsLt_bf16_f32)))
      (shapeCast S400x128 v37 shapeCasts_S400x128_S400x128)) v40 (constant (F := Ideal) S400x40 .f32 0x00000000#32))
         (broadcastTo S400x40 (shapeCast S1x40 v42 shapeCasts_S1x40_S1x40) broadcasts_S1x40_S400x40)) (ix2 p j)
      = linN v33 v26 v37 v40 v42 p j := by
  refine (addf_apply _ _ _).trans ?_
  rw [mmC_apply, broadcastTo_1b_ab_apply, shapeCast_self v42]
  unfold linN
  refine congrArg (fun x : EReal => x + v42 (ix2 0 j)) (Finset.sum_congr rfl fun k _ => ?_)
  rw [own_apply]

/-! ## The four payload theorems -/

/-- Region 0's neighbourhood-sum payload at `(p, q)`. -/
theorem pay1_0_apply (v0 : Vec Ideal S400x10000 .f32) (v7 : Vec Ideal S10000x256 .bf16)
    (h0 : ∀ i, IsReal (v0 i)) (h7 : ∀ (k : Fin 10000) (q : Fin 128), v7 (ix2 k (hi q)) = 0) (p : Fin 400) (q : Fin 128) :
    k0_pay1 (F := Ideal) v0 v7 (ix2 p q) = aggN v0 v7 p q := by
  unfold k0_pay1
  refine (addf_apply _ _ _).trans ?_
  rw [slice2_axis1_apply 0 _ slices_S400x256_o0_0_S400x128 p q (lo q) (Nat.zero_add _).symm,
    slice2_axis1_apply 128 _ slices_S400x256_o0_128_S400x128 p q (hi q) rfl,
    v11_apply v0 v7 h0, v11_apply v0 v7 h0]
  have e : ∑ k : Fin 10000, v0 (ix2 p k) * v7 (ix2 k (hi q)) = 0 :=
    Finset.sum_eq_zero fun k _ => by rw [h7, mul_zero]
  rw [e, add_zero]
  rfl

/-- Region 1's neighbourhood-sum payload at `(p, q)`: the same function. -/
theorem pay1_1_apply (v0 : Vec Ideal S400x10000 .f32) (v7 : Vec Ideal S10000x256 .bf16)
    (h0 : ∀ i, IsReal (v0 i)) (h7 : ∀ (k : Fin 10000) (q : Fin 128), v7 (ix2 k (hi q)) = 0) (p : Fin 400) (q : Fin 128) :
    k1_pay1 (F := Ideal) v0 v7 (ix2 p q) = aggN v0 v7 p q := by
  exact (congrFun (congrFun (congrFun k1_pay1_eq v0) v7) (ix2 p q)).trans (pay1_0_apply v0 v7 h0 h7 p q)

/-- Region 0's second payload: the two-halves array of the clipped linear part. -/
theorem pay3_0_eq (v26 : Vec Ideal S400x256 .bf16) (v33 : Vec Ideal S1x128 .f32) (v37 : Vec Ideal S400x128 .f32)
    (v40 : Vec Ideal S128x128 .f32) (v42 : Vec Ideal S1x128 .f32) :
    k0_pay3 (F := Ideal) v26 v33 v37 v40 v42 = splitArr (n := 400) (fun p j => max (linN v33 v26 v37 v40 v42 p j) lit0) := by
  funext i
  obtain ⟨p, c, rfl⟩ : ∃ (p : Fin 400) (c : Fin 256), i = ix2 p c := ⟨i 0, i 1, eq_ix2 i⟩
  rcases col_cases c with ⟨q, rfl⟩ | ⟨q, rfl⟩
  · rw [splitArr_lo]; exact pay3_0_lo v26 v33 v37 v40 v42 p q
  · rw [splitArr_hi]; exact pay3_0_hi v26 v33 v37 v40 v42 p q

/-- Region 1's second payload: the row-wise log-softmax of the linear part. -/
theorem pay3_1_eq (v26 : Vec Ideal S400x256 .bf16) (v33 : Vec Ideal S1x128 .f32) (v37 : Vec Ideal S400x128 .f32)
    (v40 : Vec Ideal S128x40 .f32) (v42 : Vec Ideal S1x40 .f32) :
    k1_pay3 (F := Ideal) v26 v33 v37 v40 v42 = arr2 (fun p j => logSoftmax (linN v33 v26 v37 v40 v42 p) j) := by
  funext i
  obtain ⟨p, j, rfl⟩ : ∃ (p : Fin 400) (j : Fin 40), i = ix2 p j := ⟨i 0, i 1, eq_ix2 i⟩
  unfold k1_pay3
  refine (logSoftmax_rows _ p j).trans ?_
  exact congrArg (fun u : Fin 40 → EReal => logSoftmax u j) (funext fun k => lin1_apply v26 v33 v37 v40 v42 p k)

end Cert.KernelIdeal.Pay

end
-- ==== Proof.Region0.lean ====
/-
  Region 0 of the kernel program over the extended reals, at any contents `V` of the buffers when the region is entered:
  what its two output arrays hold after the last grid point. Point `t` of the 25 handles node rows `[400·t, 400·t + 400)`:
  its adjacency block is those rows of the adjacency matrix, the other operands are whole arrays, and each output block is
  written back to those rows; the 25 blocks tile the output arrays, so each array is one function of the entry contents.
-/
import proofs.«178551_g62586263437736_cont_9to1_m_674_6_alg».proof.Proof.Gen.KernelIdeal.Frame
import proofs.«178551_g62586263437736_cont_9to1_m_674_6_alg».proof.Proof.Body
import proofs.«178551_g62586263437736_cont_9to1_m_674_6_alg».proof.Proof.Pay
import proofs.«178551_g62586263437736_cont_9to1_m_674_6_alg».proof.Proof.BlockSpec
import Idealize.ShloMosaic.Lib.Pipeline.Value
import Idealize.ShloMosaic.Lib.ValueIdx

noncomputable section

namespace Cert.KernelIdeal.Region0

open Cert.KernelIdeal Cert.KernelIdeal.Gen Cert.Gin
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## Where each window's block sits, decided once over the 25 points -/

/-- Point `t` reads adjacency rows from block index `t` and writes both outputs at block index `t`; every other
    window sits at block (0, 0); the feature rows the second payload loads start at row `400 · t`. -/
theorem idx_facts : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0
  ∧ win0_6.index t (0 : Fin 2) = t.val ∧ win0_6.index t (1 : Fin 2) = 0
  ∧ k0_off2 (grid0.coords t) (0 : Fin 2) = 400 * t.val ∧ k0_off2 (grid0.coords t) (1 : Fin 2) = 0 :=
  (by decide +kernel : ∀ t : Fin grid0.N, _)

theorem lt25 (t : Fin cfg0.N) : t.val < 25 := by have h : cfg0.N = 25 := N_0; have := t.isLt; omega

/-- Row `p` of point `t`'s block is row `400 · t + p` of the array. -/
abbrev row (t : Fin cfg0.N) (p : Fin 400) : Fin 10000 := ⟨400 * t.val + p.val, by have := lt25 t; have := p.isLt; omega⟩

/-! ## The input blocks, named at their literal types -/

abbrev ablk (c : Dev nD) (t : Fin cfg0.N) : Vec Ideal S400x10000 .f32 := iblk0 V c 0 t
abbrev xblk (c : Dev nD) (t : Fin cfg0.N) : Vec Ideal S10000x256 .bf16 := iblk0 V c 1 t
abbrev wblk (c : Dev nD) (t : Fin cfg0.N) : Vec Ideal S128x128 .f32 := iblk0 V c 2 t
abbrev bblk (c : Dev nD) (t : Fin cfg0.N) : Vec Ideal S1x128 .f32 := iblk0 V c 3 t
abbrev sblk (c : Dev nD) (t : Fin cfg0.N) : Vec Ideal S1x128 .f32 := iblk0 V c 4 t

/-- The adjacency block at point `t` holds rows `[400·t, 400·t + 400)` of the adjacency matrix. -/
theorem ablk_apply (c : Dev nD) (t : Fin cfg0.N) (p : Fin 400) (k : Fin 10000) :
    ablk V c t (ix2 p k) = V c main_arg1 (ix2 (row t p) k) := by
  obtain ⟨e0, e1, -⟩ := idx_facts t
  unfold ablk iblk0
  rw [View.read_apply]
  show V c main_arg1 (((cfg0.win 0).blk t).view.emb (ix2 p k)) = V c main_arg1 _
  congr 1
  funext a; apply Fin.ext
  match a with
  | ⟨0, _⟩ => show win0_0.index t (0 : Fin 2) * 400 + 1 * p.val = 400 * t.val + p.val; rw [e0]; omega
  | ⟨1, _⟩ => show win0_0.index t (1 : Fin 2) * 10000 + 1 * k.val = k.val; rw [e1]; omega

/-- The windows whose block is their whole array: the block read at any point is the array. -/
theorem xblk_eq (c : Dev nD) (t : Fin cfg0.N) : xblk V c t = V c main_v4 := by
  obtain ⟨-, -, e0, e1, -⟩ := idx_facts t
  funext y
  unfold xblk iblk0
  rw [View.read_apply]
  show V c main_v4 (((cfg0.win 1).blk t).view.emb y) = V c main_v4 y
  congr 1
  funext a; apply Fin.ext
  match a with
  | ⟨0, _⟩ => show win0_1.index t (0 : Fin 2) * 10000 + 1 * (y 0).val = (y 0).val; rw [e0]; omega
  | ⟨1, _⟩ => show win0_1.index t (1 : Fin 2) * 256 + 1 * (y 1).val = (y 1).val; rw [e1]; omega

theorem wblk_eq (c : Dev nD) (t : Fin cfg0.N) : wblk V c t = V c main_arg2 := by
  obtain ⟨-, -, -, -, e0, e1, -⟩ := idx_facts t
  funext y
  unfold wblk iblk0
  rw [View.read_apply]
  show V c main_arg2 (((cfg0.win 2).blk t).view.emb y) = V c main_arg2 y
  congr 1
  funext a; apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem bblk_eq (c : Dev nD) (t : Fin cfg0.N) : bblk V c t = V c main_v11 := by
  obtain ⟨-, -, -, -, -, -, e0, e1, -⟩ := idx_facts t
  funext y
  unfold bblk iblk0
  rw [View.read_apply]
  show V c main_v11 (((cfg0.win 3).blk t).view.emb y) = V c main_v11 y
  congr 1
  funext a; apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem sblk_eq (c : Dev nD) (t : Fin cfg0.N) : sblk V c t = V c main_v7 := by
  obtain ⟨-, -, -, -, -, -, -, -, e0, e1, -⟩ := idx_facts t
  funext y
  unfold sblk iblk0
  rw [View.read_apply]
  show V c main_v7 (((cfg0.win 4).blk t).view.emb y) = V c main_v7 y
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The 400 feature rows the second payload loads at point `t` are rows `[400·t, 400·t + 400)` of the operand. -/
theorem ld_rows (x1 : Vec Ideal S10000x256 .bf16) (t : Fin cfg0.N)
    (inb : ∀ a, (k0_off2 (grid0.coords t)) a + S400x256.size a ≤ S10000x256.size a) (p : Fin 400) (j : Fin 256) :
    View.ld x1 (Rect.unit (k0_off2 (grid0.coords t)) S400x256.size inb) (ix2 p j) = x1 (ix2 (row t p) j) := by
  obtain ⟨-, -, -, -, -, -, -, -, -, -, -, -, -, -, o0, o1⟩ := idx_facts t
  show x1 ((Rect.unit (s := S10000x256) (k0_off2 (grid0.coords t)) S400x256.size inb).idx (ix2 p j)) = _
  congr 1
  funext a; apply Fin.ext
  match a with
  | ⟨0, _⟩ => show k0_off2 (grid0.coords t) (0 : Fin 2) + 1 * p.val = 400 * t.val + p.val; rw [o0]; omega
  | ⟨1, _⟩ => show k0_off2 (grid0.coords t) (1 : Fin 2) + 1 * j.val = j.val; rw [o1]; omega

/-! ## Where the output blocks sit in their arrays -/

theorem blk5_emb (t : Fin cfg0.N) (p : Fin 400) (q : Fin 128) :
    ((cfg0.win 5).blk t).view.emb (ix2 p q) = (ix2 (row t p) q : S10000x128.Idx) := by
  obtain ⟨-, -, -, -, -, -, -, -, -, -, e0, e1, -⟩ := idx_facts t
  funext a; apply Fin.ext
  match a with
  | ⟨0, _⟩ => show win0_5.index t (0 : Fin 2) * 400 + 1 * p.val = 400 * t.val + p.val; rw [e0]; omega
  | ⟨1, _⟩ => show win0_5.index t (1 : Fin 2) * 128 + 1 * q.val = q.val; rw [e1]; omega

theorem blk6_emb (t : Fin cfg0.N) (p : Fin 400) (j : Fin 256) :
    ((cfg0.win 6).blk t).view.emb (ix2 p j) = (ix2 (row t p) j : S10000x256.Idx) := by
  obtain ⟨-, -, -, -, -, -, -, -, -, -, -, -, e0, e1, -⟩ := idx_facts t
  funext a; apply Fin.ext
  match a with
  | ⟨0, _⟩ => show win0_6.index t (0 : Fin 2) * 400 + 1 * p.val = 400 * t.val + p.val; rw [e0]; omega
  | ⟨1, _⟩ => show win0_6.index t (1 : Fin 2) * 256 + 1 * j.val = j.val; rw [e1]; omega

/-! ## The neighbourhood-sum block is the block of the neighbourhood-sum array -/

/-- Over the adjacency block of point `t`, the sum at `(p, q)` is the array's sum at row `400·t + p`. -/
theorem agg_blk (c : Dev nD) (t : Fin cfg0.N) (p : Fin 400) (q : Fin 128) :
    aggN (ablk V c t) (V c main_v4) p q = aggN (V c main_arg1) (V c main_v4) (row t p) q := by
  unfold aggN
  exact Finset.sum_congr rfl fun k _ => by rw [ablk_apply]

theorem pay1_blk (c : Dev nD) (hA : ∀ i, IsReal (V c main_arg1 i)) (hX : ∀ (k : Fin 10000) (q : Fin 128), V c main_v4 (ix2 k (hi q)) = (0 : EReal))
    (t : Fin cfg0.N) (p : Fin 400) (q : Fin 128) :
    k0_pay1 (F := Ideal) (ablk V c t) (xblk V c t) (ix2 p q) = aggN (V c main_arg1) (V c main_v4) (row t p) q := by
  rw [xblk_eq]
  refine (Pay.pay1_0_apply (ablk V c t) (V c main_v4) ?_ hX p q).trans (agg_blk V c t p q)
  intro i
  obtain ⟨a, b, rfl⟩ : ∃ (a : Fin 400) (b : Fin 10000), i = ix2 a b := ⟨i 0, i 1, eq_ix2 i⟩
  rw [ablk_apply]
  exact hA _

theorem pay1_read (c : Dev nD) (hA : ∀ i, IsReal (V c main_arg1 i)) (hX : ∀ (k : Fin 10000) (q : Fin 128), V c main_v4 (ix2 k (hi q)) = (0 : EReal))
    (t : Fin cfg0.N) (y : S400x128.Idx) :
    k0_pay1 (F := Ideal) (ablk V c t) (xblk V c t) y
      = (arr2 (aggN (V c main_arg1) (V c main_v4)) : S10000x128.Idx → EReal) (((cfg0.win 5).blk t).view.emb y) := by
  obtain ⟨p, q, rfl⟩ : ∃ (p : Fin 400) (q : Fin 128), y = ix2 p q := ⟨y 0, y 1, eq_ix2 y⟩
  rw [blk5_emb, arr2_ix2]
  exact pay1_blk V c hA hX t p q

/-- What point `t` writes back to the neighbourhood-sum array is its block of that array's closed form. -/
theorem flushed5_eq (c : Dev nD) (hA : ∀ i, IsReal (V c main_arg1 i)) (hX : ∀ (k : Fin 10000) (q : Fin 128), V c main_v4 (ix2 k (hi q)) = (0 : EReal))
    (t : Fin cfg0.N) :
    (dat0 (F := Ideal) V c).flushed 5 t = ((cfg0.win 5).blk t).view.read (Elt Ideal) (arr2 (aggN (V c main_arg1) (V c main_v4))) := by
  show (cfg0.win 5).cut (grid0.coords t) ((dat0 (F := Ideal) V c).after 5 t) = _
  rw [after0_5]
  unfold outsAt0
  dsimp only
  rw [Body.out0_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (hcond0_0 t) (hcond0_1 t) (hcond0_2 t) (ablk V c t) (xblk V c t) (wblk V c t) (bblk V c t) (sblk V c t)]
  funext y
  exact pay1_read V c hA hX t y

/-! ## The 25 output blocks tile their arrays -/

/-- An index lies in point `t`'s block of the neighbourhood-sum array iff each coordinate lies in the block's range. -/
theorem mem_blk5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v13_0).slice (win0_5.rect t)).set ↔ _
  rw [View.set_slice_whole, Rect.mem_set_unit]
  exact Iff.rfl

theorem mem_blk6 (t : Fin cfg0.N) (i : S10000x256.Idx) :
    i ∈ ((cfg0.win 6).blk t).view.set ↔ ∀ a : Fin 2, win0_6.index t a * S400x256.size a ≤ (i a).val ∧ (i a).val < win0_6.index t a * S400x256.size a + S400x256.size a := by
  show i ∈ ((View.whole main_v13_1).slice (win0_6.rect t)).set ↔ _
  rw [View.set_slice_whole, Rect.mem_set_unit]
  exact Iff.rfl

/-- Row `r` of the neighbourhood-sum array is written back by point `r / 400`. -/
theorem cover5 (i : S10000x128.Idx) : ∃ t : Fin cfg0.N, (cfg0.win 5).flush t = true ∧ i ∈ ((cfg0.win 5).blk t).view.set := by
  have h0 : (i 0).val < 10000 := (i 0).isLt
  have h1 : (i 1).val < 128 := (i 1).isLt
  obtain ⟨t, ht⟩ : ∃ t : Fin cfg0.N, t.val = (i 0).val / 400 := ⟨⟨(i 0).val / 400, by have h : cfg0.N = 25 := N_0; omega⟩, rfl⟩
  refine ⟨t, flush0_5 t, ?_⟩
  rw [mem_blk5]
  obtain ⟨-, -, -, -, -, -, -, -, -, -, e0, e1, -⟩ := idx_facts t
  intro a
  match a with
  | ⟨0, _⟩ => show win0_5.index t (0 : Fin 2) * 400 ≤ (i 0).val ∧ (i 0).val < win0_5.index t (0 : Fin 2) * 400 + 400; rw [e0]; omega
  | ⟨1, _⟩ => show win0_5.index t (1 : Fin 2) * 128 ≤ (i 1).val ∧ (i 1).val < win0_5.index t (1 : Fin 2) * 128 + 128; rw [e1]; omega

/-- Row `r` of the hidden-feature array is written back by point `r / 400`. -/
theorem cover6 (i : S10000x256.Idx) : ∃ t : Fin cfg0.N, (cfg0.win 6).flush t = true ∧ i ∈ ((cfg0.win 6).blk t).view.set := by
  have h0 : (i 0).val < 10000 := (i 0).isLt
  have h1 : (i 1).val < 256 := (i 1).isLt
  obtain ⟨t, ht⟩ : ∃ t : Fin cfg0.N, t.val = (i 0).val / 400 := ⟨⟨(i 0).val / 400, by have h : cfg0.N = 25 := N_0; omega⟩, rfl⟩
  refine ⟨t, flush0_6 t, ?_⟩
  rw [mem_blk6]
  obtain ⟨-, -, -, -, -, -, -, -, -, -, -, -, e0, e1, -⟩ := idx_facts t
  intro a
  match a with
  | ⟨0, _⟩ => show win0_6.index t (0 : Fin 2) * 400 ≤ (i 0).val ∧ (i 0).val < win0_6.index t (0 : Fin 2) * 400 + 400; rw [e0]; omega
  | ⟨1, _⟩ => show win0_6.index t (1 : Fin 2) * 256 ≤ (i 1).val ∧ (i 1).val < win0_6.index t (1 : Fin 2) * 256 + 256; rw [e1]; omega

/-! ## The hidden-feature block is the block of the hidden-feature array -/

/-- A two-halves array depends on a row only through that row: equal rows give equal entries on both halves. -/
theorem splitArr_row {n m : Nat} (h : Fin n → Fin 128 → EReal) (H : Fin m → Fin 128 → EReal) (p : Fin n) (r : Fin m)
    (e : ∀ q, h p q = H r q) (j : Fin 256) : splitArr h (ix2 p j) = splitArr H (ix2 r j) := by
  by_cases hj : j.val < 128
  · obtain ⟨q, rfl⟩ : ∃ q : Fin 128, j = lo q := ⟨⟨j.val, hj⟩, Fin.ext rfl⟩
    rw [splitArr_lo, splitArr_lo, e]
  · obtain ⟨q, rfl⟩ : ∃ q : Fin 128, j = hi q :=
      ⟨⟨j.val - 128, by have := j.isLt; omega⟩, Fin.ext (by show j.val = 128 + (j.val - 128); omega)⟩
    rw [splitArr_hi, splitArr_hi, e]

/-- Over point `t`'s blocks the linear part at row `p` is the array's linear part at row `400·t + p`: the block's own
    feature rows and its neighbourhood sums are those rows of the arrays, the scale, weights and bias are whole. -/
theorem lin_blk (c : Dev nD) (hA : ∀ i, IsReal (V c main_arg1 i)) (hX : ∀ (k : Fin 10000) (q : Fin 128), V c main_v4 (ix2 k (hi q)) = (0 : EReal))
    (t : Fin cfg0.N) (inb : ∀ a, (k0_off2 (grid0.coords t)) a + S400x256.size a ≤ S10000x256.size a) (p : Fin 400) (j : Fin 128) :
    linN (n := 400) (sblk V c t) (View.ld (xblk V c t) (Rect.unit (s := S10000x256) (k0_off2 (grid0.coords t)) S400x256.size inb))
        (k0_pay1 (F := Ideal) (ablk V c t) (xblk V c t)) (wblk V c t) (bblk V c t) p j
      = linN (n := 10000) (V c main_v7) (V c main_v4) (arr2 (aggN (V c main_arg1) (V c main_v4))) (V c main_arg2) (V c main_v11) (row t p) j := by
  rw [sblk_eq, wblk_eq, bblk_eq]
  unfold linN
  congr 1
  refine Finset.sum_congr rfl fun k _ => ?_
  rw [ld_rows, ld_rows, pay1_blk V c hA hX t p k, xblk_eq, arr2_ix2]

theorem pay3_read (c : Dev nD) (hA : ∀ i, IsReal (V c main_arg1 i)) (hX : ∀ (k : Fin 10000) (q : Fin 128), V c main_v4 (ix2 k (hi q)) = (0 : EReal))
    (t : Fin cfg0.N) (inb : ∀ a, (k0_off2 (grid0.coords t)) a + S400x256.size a ≤ S10000x256.size a) (y : S400x256.Idx) :
    k0_pay3 (F := Ideal) (View.ld (xblk V c t) (Rect.unit (s := S10000x256) (k0_off2 (grid0.coords t)) S400x256.size inb)) (sblk V c t)
        (k0_pay1 (F := Ideal) (ablk V c t) (xblk V c t)) (wblk V c t) (bblk V c t) y
      = (splitArr (n := 10000) (fun r j => max (linN (V c main_v7) (V c main_v4) (arr2 (aggN (V c main_arg1) (V c main_v4))) (V c main_arg2) (V c main_v11) r j) lit0)
          : S10000x256.Idx → EReal) (((cfg0.win 6).blk t).view.emb y) := by
  rw [Pay.pay3_0_eq]
  obtain ⟨p, j, rfl⟩ : ∃ (p : Fin 400) (j : Fin 256), y = ix2 p j := ⟨y 0, y 1, eq_ix2 y⟩
  rw [blk6_emb]
  exact splitArr_row _ _ p (row t p) (fun q => congrArg (fun z => max z lit0) (lin_blk V c hA hX t inb p q)) j

/-- What point `t` writes back to the hidden-feature array is its block of that array's closed form. -/
theorem flushed6_eq (c : Dev nD) (hA : ∀ i, IsReal (V c main_arg1 i)) (hX : ∀ (k : Fin 10000) (q : Fin 128), V c main_v4 (ix2 k (hi q)) = (0 : EReal))
    (t : Fin cfg0.N) :
    (dat0 (F := Ideal) V c).flushed 6 t = ((cfg0.win 6).blk t).view.read (Elt Ideal)
      (splitArr (n := 10000) (fun r j => max (linN (V c main_v7) (V c main_v4) (arr2 (aggN (V c main_arg1) (V c main_v4))) (V c main_arg2) (V c main_v11) r j) lit0)) := by
  show (cfg0.win 6).cut (grid0.coords t) ((dat0 (F := Ideal) V c).after 6 t) = _
  rw [after0_6]
  unfold outsAt0
  dsimp only
  rw [Body.out0_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (hcond0_0 t) (hcond0_1 t) (hcond0_2 t) (ablk V c t) (xblk V c t) (wblk V c t) (bblk V c t) (sblk V c t)]
  funext y
  exact pay3_read V c hA hX t _ y

/-! ## The two output arrays after the last point -/

/-- The neighbourhood-sum array after region 0: the adjacency matrix against the left half of the feature operand. -/
theorem fp (c : Dev nD) (hA : ∀ i, IsReal (V c main_arg1 i)) (hX : ∀ (k : Fin 10000) (q : Fin 128), V c main_v4 (ix2 k (hi q)) = (0 : EReal)) :
    (dat0 (F := Ideal) V c).arrAt 5 cfg0.N = arr2 (aggN (V c main_arg1) (V c main_v4)) := by
  exact (dat0 (F := Ideal) V c).arrAt_eq_of_cover 5 (arr2 (aggN (V c main_arg1) (V c main_v4))) (fun t _ => flushed5_eq V c hA hX t) cover5

/-- The two-halves hidden-feature array after region 0: every row's clipped linear part on the left, its remainder on the right. -/
theorem h2 (c : Dev nD) (hA : ∀ i, IsReal (V c main_arg1 i)) (hX : ∀ (k : Fin 10000) (q : Fin 128), V c main_v4 (ix2 k (hi q)) = (0 : EReal)) :
    (dat0 (F := Ideal) V c).arrAt 6 cfg0.N
      = splitArr (n := 10000) (fun r j => max (linN (V c main_v7) (V c main_v4) (arr2 (aggN (V c main_arg1) (V c main_v4))) (V c main_arg2) (V c main_v11) r j) lit0) := by
  exact (dat0 (F := Ideal) V c).arrAt_eq_of_cover 6 _ (fun t _ => flushed6_eq V c hA hX t) cover6

end Cert.KernelIdeal.Region0

end
-- ==== Proof.Region1.lean ====
/-
  Region 1 of the kernel program over the extended reals, at any contents `V` of the buffers when the region is entered:
  what its two output arrays hold after the last grid point. Point `t` of the 25 handles node rows `[400·t, 400·t + 400)`:
  its adjacency block is those rows of the adjacency matrix, the other operands are whole arrays, and each output block is
  written back to those rows; the 25 blocks tile the output arrays, so each array is one function of the entry contents.
-/
import proofs.«178551_g62586263437736_cont_9to1_m_674_6_alg».proof.Proof.Gen.KernelIdeal.Frame
import proofs.«178551_g62586263437736_cont_9to1_m_674_6_alg».proof.Proof.Body
import proofs.«178551_g62586263437736_cont_9to1_m_674_6_alg».proof.Proof.Pay
import proofs.«178551_g62586263437736_cont_9to1_m_674_6_alg».proof.Proof.BlockSpec
import Idealize.ShloMosaic.Lib.Pipeline.Value
import Idealize.ShloMosaic.Lib.ValueIdx

noncomputable section

namespace Cert.KernelIdeal.Region1

open Cert.KernelIdeal Cert.KernelIdeal.Gen Cert.Gin
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- Every grid point's number is below 25. -/
theorem t_lt (t : Fin cfg1.N) : t.val < 25 := by
  have h := t.isLt
  have hN : cfg1.N = 25 := N_1
  omega

/-- The index maps, decided over the 25 points. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ k1_off2 (grid1.coords t) (0 : Fin 2) = 400 * t.val ∧ k1_off2 (grid1.coords t) (1 : Fin 2) = 0 :=
  (by decide +kernel : ∀ t : Fin grid1.N, _)

/-- Point t's adjacency block. -/
abbrev ablk (c : Dev nD) (t : Fin cfg1.N) : Vec Ideal S400x10000 .f32 := iblk1 (F := Ideal) V c 0 t

theorem ablk_apply (c : Dev nD) (t : Fin cfg1.N) (p : Fin 400) (k : Fin 10000) (h : 400 * t.val + p.val < 10000) :
    ablk V c t (ix2 p k) = V c main_arg1 (ix2 ⟨400 * t.val + p.val, h⟩ k) := by
  obtain ⟨e0, e1, -⟩ := idx_facts t
  unfold ablk iblk1
  rw [View.read_apply]
  show V c main_arg1 (((cfg1.win 0).blk t).view.emb (ix2 p k)) = V c main_arg1 _
  congr 1
  funext a
  apply Fin.ext
  match a with
  | ⟨0, _⟩ => show win1_0.index t (0 : Fin 2) * 400 + 1 * p.val = 400 * t.val + p.val; rw [e0]; omega
  | ⟨1, _⟩ => show win1_0.index t (1 : Fin 2) * 10000 + 1 * k.val = k.val; rw [e1]; omega

/-- The whole feature operand, as point t's block of window 1. -/
abbrev xblk (c : Dev nD) (t : Fin cfg1.N) : Vec Ideal S10000x256 .bf16 := iblk1 (F := Ideal) V c 1 t
/-- The weights. -/
abbrev wblk (c : Dev nD) (t : Fin cfg1.N) : Vec Ideal S128x40 .f32 := iblk1 (F := Ideal) V c 2 t
/-- The bias row. -/
abbrev bblk (c : Dev nD) (t : Fin cfg1.N) : Vec Ideal S1x40 .f32 := iblk1 (F := Ideal) V c 3 t
/-- The scale row. -/
abbrev sblk (c : Dev nD) (t : Fin cfg1.N) : Vec Ideal S1x128 .f32 := iblk1 (F := Ideal) V c 4 t

theorem xblk_eq (c : Dev nD) (t : Fin cfg1.N) : xblk V c t = (V c main_v13_1 : S10000x256.Idx → EReal) := by
  obtain ⟨-, -, e0, e1, -⟩ := idx_facts t
  funext y
  unfold xblk iblk1
  rw [View.read_apply]
  show V c main_v13_1 (((cfg1.win 1).blk t).view.emb y) = V c main_v13_1 y
  congr 1
  funext a
  apply Fin.ext
  match a with
  | ⟨0, _⟩ => show win1_1.index t (0 : Fin 2) * 10000 + 1 * (y 0).val = (y 0).val; rw [e0]; omega
  | ⟨1, _⟩ => show win1_1.index t (1 : Fin 2) * 256 + 1 * (y 1).val = (y 1).val; rw [e1]; omega

theorem wblk_eq (c : Dev nD) (t : Fin cfg1.N) : wblk V c t = (V c main_arg4 : S128x40.Idx → EReal) := by
  obtain ⟨-, -, -, -, e0, e1, -⟩ := idx_facts t
  funext y
  unfold wblk iblk1
  rw [View.read_apply]
  show V c main_arg4 (((cfg1.win 2).blk t).view.emb y) = V c main_arg4 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 40 + 1 * (y 1).val = (y 1).val; rw [e1]; omega

theorem bblk_eq (c : Dev nD) (t : Fin cfg1.N) : bblk V c t = (V c main_v12 : S1x40.Idx → EReal) := by
  obtain ⟨-, -, -, -, -, -, e0, e1, -⟩ := idx_facts t
  funext y
  unfold bblk iblk1
  rw [View.read_apply]
  show V c main_v12 (((cfg1.win 3).blk t).view.emb y) = V c main_v12 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 40 + 1 * (y 1).val = (y 1).val; rw [e1]; omega

theorem sblk_eq (c : Dev nD) (t : Fin cfg1.N) : sblk V c t = (V c main_v10 : S1x128.Idx → EReal) := by
  obtain ⟨-, -, -, -, -, -, -, -, e0, e1, -⟩ := idx_facts t
  funext y
  unfold sblk iblk1
  rw [View.read_apply]
  show V c main_v10 (((cfg1.win 4).blk t).view.emb y) = V c main_v10 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The 400 rows of a 10000-row operand that start at the point's row offset, read at (p, q): row 400·t + p. -/
theorem ld_rows (x1 : Vec Ideal S10000x256 .bf16) (t : Fin cfg1.N)
    (inb : ∀ a, (k1_off2 (grid1.coords t)) a + S400x256.size a ≤ S10000x256.size a)
    (p : Fin 400) (q : Fin 256) (h : 400 * t.val + p.val < 10000) :
    View.ld x1 (Rect.unit (k1_off2 (grid1.coords t)) S400x256.size inb) (ix2 p q) = x1 (ix2 ⟨400 * t.val + p.val, h⟩ q) := by
  obtain ⟨-, -, -, -, -, -, -, -, -, -, -, -, -, -, o0, o1⟩ := idx_facts t
  show x1 ((Rect.unit (s := S10000x256) (k1_off2 (grid1.coords t)) S400x256.size inb).idx (ix2 p q)) = _
  congr 1
  funext a
  apply Fin.ext
  match a with
  | ⟨0, _⟩ => show k1_off2 (grid1.coords t) (0 : Fin 2) + 1 * p.val = 400 * t.val + p.val; rw [o0]; omega
  | ⟨1, _⟩ => show k1_off2 (grid1.coords t) (1 : Fin 2) + 1 * q.val = q.val; rw [o1]; omega

/-- The adjacency block's entries are real, as the array's are. -/
theorem ablk_real (c : Dev nD) (hA : ∀ i, IsReal (V c main_arg1 i)) (t : Fin cfg1.N) (i : S400x10000.Idx) : IsReal (ablk V c t i) := by
  have ht := t_lt t
  have hi0 : (i 0).val < 400 := idx2_lt0 i
  have hi1 : (i 1).val < 10000 := idx2_lt1 i
  have hi : i = ix2 (⟨(i 0).val, hi0⟩ : Fin 400) (⟨(i 1).val, hi1⟩ : Fin 10000) := by
    funext a; match a with | ⟨0, _⟩ => rfl | ⟨1, _⟩ => rfl
  have e := ablk_apply V c t (⟨(i 0).val, hi0⟩ : Fin 400) (⟨(i 1).val, hi1⟩ : Fin 10000) (by show 400 * t.val + (i 0).val < 10000; omega)
  rw [hi, e]
  exact hA _

/-- The neighbourhood-sum payload over point t's blocks at (p, q): the array's neighbourhood sum at row 400·t + p. -/
theorem fp_blk_apply (c : Dev nD) (hA : ∀ i, IsReal (V c main_arg1 i))
    (hX : ∀ (k : Fin 10000) (q : Fin 128), V c main_v13_1 (ix2 k (hi q)) = (0 : EReal))
    (t : Fin cfg1.N) (p : Fin 400) (q : Fin 128) (h : 400 * t.val + p.val < 10000) :
    k1_pay1 (F := Ideal) (ablk V c t) (xblk V c t) (ix2 p q) = aggN (V c main_arg1) (V c main_v13_1) ⟨400 * t.val + p.val, h⟩ q := by
  refine (Pay.pay1_1_apply (ablk V c t) (xblk V c t) (ablk_real V c hA t) (fun k q => by rw [xblk_eq]; exact hX k q) p q).trans ?_
  unfold aggN
  refine Finset.sum_congr rfl fun k _ => ?_
  rw [ablk_apply V c t p k h, xblk_eq]

/-- What the neighbourhood-sum array holds after the region. -/
abbrev G5 (c : Dev nD) : Buf (Elt Ideal) ((c : Thread nD τ).loc main_v14_0) := arr2 (aggN (V c main_arg1) (V c main_v13_1))

theorem flushed5_eq (c : Dev nD) (hA : ∀ i, IsReal (V c main_arg1 i))
    (hX : ∀ (k : Fin 10000) (q : Fin 128), V c main_v13_1 (ix2 k (hi q)) = (0 : EReal)) (t : Fin cfg1.N) :
    (dat1 (F := Ideal) V c).flushed 5 t = ((cfg1.win 5).blk t).view.read (Elt Ideal) (G5 V c) := by
  show (cfg1.win 5).cut (grid1.coords t) ((dat1 (F := Ideal) V c).after 5 t) = _
  rw [after1_5]
  unfold outsAt1
  dsimp only
  rw [Body.out1_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (hcond1_0 t) (hcond1_1 t) (hcond1_2 t) (ablk V c t) (xblk V c t) (wblk V c t) (bblk V c t) (sblk V c t)]
  funext y
  have ht := t_lt t
  have hy0 : (y 0).val < 400 := (y 0).isLt
  have hy1 : (y 1).val < 128 := (y 1).isLt
  obtain ⟨-, -, -, -, -, -, -, -, -, -, e0, e1, -⟩ := idx_facts t
  have hL : (win1 5).xinj (grid1.coords t) y = ix2 (⟨(y 0).val, hy0⟩ : Fin 400) (⟨(y 1).val, hy1⟩ : Fin 128) := by
    funext a; match a with | ⟨0, _⟩ => rfl | ⟨1, _⟩ => rfl
  have hR : ((cfg1.win 5).blk t).view.emb y = ix2 (⟨400 * t.val + (y 0).val, by omega⟩ : Fin 10000) (⟨(y 1).val, hy1⟩ : Fin 128) := by
    funext a
    apply Fin.ext
    match a with
    | ⟨0, _⟩ => show win1_5.index t (0 : Fin 2) * 400 + 1 * (y 0).val = 400 * t.val + (y 0).val; rw [e0]; omega
    | ⟨1, _⟩ => show win1_5.index t (1 : Fin 2) * 128 + 1 * (y 1).val = (y 1).val; rw [e1]; omega
  show k1_pay1 (F := Ideal) (ablk V c t) (xblk V c t) ((win1 5).xinj (grid1.coords t) y) = G5 V c (((cfg1.win 5).blk t).view.emb y)
  refine (congrArg (k1_pay1 (F := Ideal) (ablk V c t) (xblk V c t)) hL).trans ?_
  refine (fp_blk_apply V c hA hX t ⟨(y 0).val, hy0⟩ ⟨(y 1).val, hy1⟩ (by show 400 * t.val + (y 0).val < 10000; omega)).trans ?_
  exact (congrArg (G5 V c) hR).symm

/-- An index of the neighbourhood-sum array is in point t's block iff each coordinate is in the block's range. -/
theorem mem_blk5 (t : Fin cfg1.N) (i : S10000x128.Idx) :
    i ∈ ((cfg1.win 5).blk t).view.set ↔ ∀ a : Fin 2, win1_5.index t a * S400x128.size a ≤ (i a).val ∧ (i a).val < win1_5.index t a * S400x128.size a + S400x128.size a := by
  show i ∈ ((View.whole main_v14_0).slice (win1_5.rect t)).set ↔ _
  rw [View.set_slice_whole, Rect.mem_set_unit]
  exact Iff.rfl

/-- Row r of the neighbourhood-sum array is written back by point r / 400. -/
theorem cover5 (i : S10000x128.Idx) : ∃ t : Fin cfg1.N, (cfg1.win 5).flush t = true ∧ i ∈ ((cfg1.win 5).blk t).view.set := by
  have hi0 : (i 0).val < 10000 := idx2_lt0 i
  have hi1 : (i 1).val < 128 := idx2_lt1 i
  have hN : cfg1.N = 25 := N_1
  obtain ⟨t, htv⟩ : ∃ t : Fin cfg1.N, t.val = (i 0).val / 400 := ⟨⟨(i 0).val / 400, by rw [hN]; omega⟩, rfl⟩
  obtain ⟨-, -, -, -, -, -, -, -, -, -, e0, e1, -⟩ := idx_facts t
  refine ⟨t, flush1_5 t, ?_⟩
  rw [mem_blk5]
  intro a
  match a with
  | ⟨0, _⟩ => show win1_5.index t (0 : Fin 2) * 400 ≤ (i 0).val ∧ (i 0).val < win1_5.index t (0 : Fin 2) * 400 + 400; rw [e0, htv]; omega
  | ⟨1, _⟩ => show win1_5.index t (1 : Fin 2) * 128 ≤ (i 1).val ∧ (i 1).val < win1_5.index t (1 : Fin 2) * 128 + 128; rw [e1]; omega

/-- The neighbourhood-sum array after region 1: the adjacency matrix against the left half of the feature operand. -/
theorem fp (c : Dev nD) (hA : ∀ i, IsReal (V c main_arg1 i)) (hX : ∀ (k : Fin 10000) (q : Fin 128), V c main_v13_1 (ix2 k (hi q)) = (0 : EReal)) :
    (dat1 (F := Ideal) V c).arrAt 5 cfg1.N = arr2 (aggN (V c main_arg1) (V c main_v13_1)) :=
  (dat1 (F := Ideal) V c).arrAt_eq_of_cover 5 (G5 V c) (fun t _ => flushed5_eq V c hA hX t) cover5

/-- The point's own 400 rows of the feature operand. -/
abbrev xrows (c : Dev nD) (t : Fin cfg1.N) (inb : ∀ a, (k1_off2 (grid1.coords t)) a + S400x256.size a ≤ S10000x256.size a) : Vec Ideal S400x256 .bf16 :=
  View.ld (xblk V c t) (Rect.unit (s := S10000x256) (k1_off2 (grid1.coords t)) S400x256.size inb)

theorem xrows_apply (c : Dev nD) (t : Fin cfg1.N) (inb) (p : Fin 400) (q : Fin 256) (h : 400 * t.val + p.val < 10000) :
    xrows V c t inb (ix2 p q) = V c main_v13_1 (ix2 ⟨400 * t.val + p.val, h⟩ q) := by
  refine (ld_rows (xblk V c t) t inb p q h).trans ?_
  rw [xblk_eq]

/-- The point's neighbourhood-sum block. -/
abbrev fpblk (c : Dev nD) (t : Fin cfg1.N) : Vec Ideal S400x128 .f32 := k1_pay1 (F := Ideal) (ablk V c t) (xblk V c t)

theorem fpblk_apply (c : Dev nD) (hA : ∀ i, IsReal (V c main_arg1 i))
    (hX : ∀ (k : Fin 10000) (q : Fin 128), V c main_v13_1 (ix2 k (hi q)) = (0 : EReal))
    (t : Fin cfg1.N) (p : Fin 400) (q : Fin 128) (h : 400 * t.val + p.val < 10000) :
    fpblk V c t (ix2 p q) = aggN (V c main_arg1) (V c main_v13_1) ⟨400 * t.val + p.val, h⟩ q :=
  fp_blk_apply V c hA hX t p q h

/-- The result payload over point t's blocks at (p, j): the array's log-softmax row 400·t + p at j. -/
theorem res_blk_apply (c : Dev nD) (hA : ∀ i, IsReal (V c main_arg1 i))
    (hX : ∀ (k : Fin 10000) (q : Fin 128), V c main_v13_1 (ix2 k (hi q)) = (0 : EReal))
    (t : Fin cfg1.N) (inb) (p : Fin 400) (j : Fin 40) (h : 400 * t.val + p.val < 10000) :
    k1_pay3 (F := Ideal) (xrows V c t inb) (sblk V c t) (fpblk V c t) (wblk V c t) (bblk V c t) (ix2 p j)
      = logSoftmax (linN (V c main_v10) (V c main_v13_1) (arr2 (aggN (V c main_arg1) (V c main_v13_1))) (V c main_arg4) (V c main_v12) ⟨400 * t.val + p.val, h⟩) j := by
  refine (congrFun (Pay.pay3_1_eq (xrows V c t inb) (sblk V c t) (fpblk V c t) (wblk V c t) (bblk V c t)) (ix2 p j)).trans ?_
  show logSoftmax (linN (sblk V c t) (xrows V c t inb) (fpblk V c t) (wblk V c t) (bblk V c t) p) j = _
  refine congrArg (fun u => logSoftmax u j) ?_
  funext j'
  unfold linN
  rw [sblk_eq, wblk_eq, bblk_eq]
  refine congrArg (· + V c main_v12 (ix2 0 j')) ?_
  refine Finset.sum_congr rfl fun k _ => ?_
  rw [xrows_apply V c t inb p (lo k) h, xrows_apply V c t inb p (hi k) h, fpblk_apply V c hA hX t p k h]

/-- What the result array holds after the region. -/
abbrev G6 (c : Dev nD) : Buf (Elt Ideal) ((c : Thread nD τ).loc main_v14_1) :=
  arr2 (fun r j => logSoftmax (linN (V c main_v10) (V c main_v13_1) (arr2 (aggN (V c main_arg1) (V c main_v13_1))) (V c main_arg4) (V c main_v12) r) j)

theorem flushed6_eq (c : Dev nD) (hA : ∀ i, IsReal (V c main_arg1 i))
    (hX : ∀ (k : Fin 10000) (q : Fin 128), V c main_v13_1 (ix2 k (hi q)) = (0 : EReal)) (t : Fin cfg1.N) :
    (dat1 (F := Ideal) V c).flushed 6 t = ((cfg1.win 6).blk t).view.read (Elt Ideal) (G6 V c) := by
  show (cfg1.win 6).cut (grid1.coords t) ((dat1 (F := Ideal) V c).after 6 t) = _
  rw [after1_6]
  unfold outsAt1
  dsimp only
  rw [Body.out1_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (hcond1_0 t) (hcond1_1 t) (hcond1_2 t) (ablk V c t) (xblk V c t) (wblk V c t) (bblk V c t) (sblk V c t)]
  funext y
  have ht := t_lt t
  have hy0 : (y 0).val < 400 := (y 0).isLt
  have hy1 : (y 1).val < 40 := (y 1).isLt
  obtain ⟨-, -, -, -, -, -, -, -, -, -, -, -, e0, e1, -⟩ := idx_facts t
  have hL : (win1 6).xinj (grid1.coords t) y = ix2 (⟨(y 0).val, hy0⟩ : Fin 400) (⟨(y 1).val, hy1⟩ : Fin 40) := by
    funext a; match a with | ⟨0, _⟩ => rfl | ⟨1, _⟩ => rfl
  have hR : ((cfg1.win 6).blk t).view.emb y = ix2 (⟨400 * t.val + (y 0).val, by omega⟩ : Fin 10000) (⟨(y 1).val, hy1⟩ : Fin 40) := by
    funext a
    apply Fin.ext
    match a with
    | ⟨0, _⟩ => show win1_6.index t (0 : Fin 2) * 400 + 1 * (y 0).val = 400 * t.val + (y 0).val; rw [e0]; omega
    | ⟨1, _⟩ => show win1_6.index t (1 : Fin 2) * 40 + 1 * (y 1).val = (y 1).val; rw [e1]; omega
  show k1_pay3 (F := Ideal) (xrows V c t (k1_off2_inb (grid1.coords t) (hcond1_2 t))) (sblk V c t) (fpblk V c t) (wblk V c t) (bblk V c t) ((win1 6).xinj (grid1.coords t) y) = G6 V c (((cfg1.win 6).blk t).view.emb y)
  refine (congrArg (k1_pay3 (F := Ideal) (xrows V c t (k1_off2_inb (grid1.coords t) (hcond1_2 t))) (sblk V c t) (fpblk V c t) (wblk V c t) (bblk V c t)) hL).trans ?_
  refine (res_blk_apply V c hA hX t (k1_off2_inb (grid1.coords t) (hcond1_2 t)) ⟨(y 0).val, hy0⟩ ⟨(y 1).val, hy1⟩ (by show 400 * t.val + (y 0).val < 10000; omega)).trans ?_
  exact (congrArg (G6 V c) hR).symm

/-- An index of the result array is in point t's block iff each coordinate is in the block's range. -/
theorem mem_blk6 (t : Fin cfg1.N) (i : S10000x40.Idx) :
    i ∈ ((cfg1.win 6).blk t).view.set ↔ ∀ a : Fin 2, win1_6.index t a * S400x40.size a ≤ (i a).val ∧ (i a).val < win1_6.index t a * S400x40.size a + S400x40.size a := by
  show i ∈ ((View.whole main_v14_1).slice (win1_6.rect t)).set ↔ _
  rw [View.set_slice_whole, Rect.mem_set_unit]
  exact Iff.rfl

/-- Row r of the result array is written back by point r / 400. -/
theorem cover6 (i : S10000x40.Idx) : ∃ t : Fin cfg1.N, (cfg1.win 6).flush t = true ∧ i ∈ ((cfg1.win 6).blk t).view.set := by
  have hi0 : (i 0).val < 10000 := idx2_lt0 i
  have hi1 : (i 1).val < 40 := idx2_lt1 i
  have hN : cfg1.N = 25 := N_1
  obtain ⟨t, htv⟩ : ∃ t : Fin cfg1.N, t.val = (i 0).val / 400 := ⟨⟨(i 0).val / 400, by rw [hN]; omega⟩, rfl⟩
  obtain ⟨-, -, -, -, -, -, -, -, -, -, -, -, e0, e1, -⟩ := idx_facts t
  refine ⟨t, flush1_6 t, ?_⟩
  rw [mem_blk6]
  intro a
  match a with
  | ⟨0, _⟩ => show win1_6.index t (0 : Fin 2) * 400 ≤ (i 0).val ∧ (i 0).val < win1_6.index t (0 : Fin 2) * 400 + 400; rw [e0, htv]; omega
  | ⟨1, _⟩ => show win1_6.index t (1 : Fin 2) * 40 ≤ (i 1).val ∧ (i 1).val < win1_6.index t (1 : Fin 2) * 40 + 40; rw [e1]; omega

/-- The result array after region 1: every row's log-softmax of its linear part. -/
theorem res (c : Dev nD) (hA : ∀ i, IsReal (V c main_arg1 i)) (hX : ∀ (k : Fin 10000) (q : Fin 128), V c main_v13_1 (ix2 k (hi q)) = (0 : EReal)) :
    (dat1 (F := Ideal) V c).arrAt 6 cfg1.N
      = arr2 (fun r j => logSoftmax (linN (V c main_v10) (V c main_v13_1) (arr2 (aggN (V c main_arg1) (V c main_v13_1))) (V c main_arg4) (V c main_v12) r) j) :=
  (dat1 (F := Ideal) V c).arrAt_eq_of_cover 6 (G6 V c) (fun t _ => flushed6_eq V c hA hX t) cover6

end Cert.KernelIdeal.Region1

end
-- ==== Proof.Bridge.lean ====
/-
  The row-range form of a layer meets the specification's form. On the two-halves array of real features `f` the left half is
  `f` and the right half `f − f = 0`, so the contraction against the left half is the neighbourhood sum of `f`, and "left half
  plus right half" is `f + 0 = f`: with the scale row constantly `1 + ε` and the bias given as a one-row matrix the row-range
  linear part is the specification's.
-/
import proofs.«178551_g62586263437736_cont_9to1_m_674_6_alg».proof.Proof.BlockSpec

noncomputable section

namespace Cert.Gin

open Idealize.ShloMosaic Idealize.ShloMosaic.ValueIdx
open scoped BigOperators

/-- An array is the array of its own entries read by coordinates. -/
theorem arr2_eta {n0 n1 : Nat} (x : (⟨2, ![n0, n1]⟩ : Shape).Idx → EReal) : arr2 (fun r q => x (ix2 r q)) = x := by
  funext i
  show x (ix2 ⟨(i 0).val, (i 0).isLt⟩ ⟨(i 1).val, (i 1).isLt⟩) = x i
  exact congrArg x (eq_ix2 i).symm

/-- Against the two-halves array of `f` the contraction with the left half is the neighbourhood sum of `f`. -/
theorem aggN_splitArr (A : (⟨2, ![10000, 10000]⟩ : Shape).Idx → EReal) (f : Fin 10000 → Fin 128 → EReal) (r : Fin 10000) (q : Fin 128) :
    aggN A (splitArr f) r q = agg A (arr2 f) r q := by
  unfold aggN agg
  refine Finset.sum_congr rfl fun k _ => ?_
  rw [splitArr_lo, arr2_ix2]

/-- On real features the row-range linear part, with scale row `1 + ε`, the neighbourhood sums of `f` and the bias as a one-row
    matrix, is the specification's linear part. -/
theorem linN_splitArr {C : Nat} (e : (⟨0, ![]⟩ : Shape).Idx → EReal) (f : Fin 10000 → Fin 128 → EReal) (hf : ∀ r q, IsReal (f r q))
    (A : (⟨2, ![10000, 10000]⟩ : Shape).Idx → EReal) (W : (⟨2, ![128, C]⟩ : Shape).Idx → EReal) (bv : (⟨1, ![C]⟩ : Shape).Idx → EReal)
    (r : Fin 10000) (j : Fin C) :
    linN (fun _ => lit1 + e ix0) (splitArr f) (arr2 (agg A (arr2 f))) W (fun i => bv (ix1 ⟨(i 1).val, (i 1).isLt⟩)) r j
      = lin e (arr2 f) A W bv r j := by
  unfold linN lin
  congr 1
  refine Finset.sum_congr rfl fun k _ => ?_
  rw [splitArr_lo, splitArr_hi, (hf r k).sub_self, add_zero, arr2_ix2, arr2_ix2]

end Cert.Gin

end
-- ==== Proof.KernelValue.lean ====
/-
  The three buffers the kernel program returns, as functions of its arguments, over the extended reals and for real inputs.
  The host's two-halves operand of the real node features `x` is `[x | 0]`, so the first region's neighbourhood sum is
  `A · x` and its second output the two-halves array `[h | 0]` of the hidden features `h = max(((1 + ε₁)·x + A·x)·W₁ + b₁, 0)`,
  which are real again; the second region, entered with that array, returns `A · h` and the row-wise log-softmax of
  `((1 + ε₂)·h + A·h)·W₂ + b₂`.
-/
import proofs.«178551_g62586263437736_cont_9to1_m_674_6_alg».proof.Proof.Gen.KernelIdeal.Frame
import proofs.«178551_g62586263437736_cont_9to1_m_674_6_alg».proof.Proof.HostVals
import proofs.«178551_g62586263437736_cont_9to1_m_674_6_alg».proof.Proof.Region0
import proofs.«178551_g62586263437736_cont_9to1_m_674_6_alg».proof.Proof.Region1
import proofs.«178551_g62586263437736_cont_9to1_m_674_6_alg».proof.Proof.Bridge

noncomputable section

namespace Cert.KernelIdeal.KValue

open Cert.KernelIdeal Cert.KernelIdeal.Gen Cert.Gin
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-- The hidden features as a function of coordinates. -/
abbrev hidf : Fin 10000 → Fin 128 → EReal :=
  hid (m ((c : Thread nD τ).loc main_arg6)) (m ((c : Thread nD τ).loc main_arg0)) (m ((c : Thread nD τ).loc main_arg1)) (m ((c : Thread nD τ).loc main_arg2)) (m ((c : Thread nD τ).loc main_arg3))

/-- The first region is entered with a real adjacency matrix. -/
theorem hA1 (hA : ∀ i, IsReal (m ((c : Thread nD τ).loc main_arg1) i)) : ∀ i, IsReal (V1 m ρ c main_arg1 i) := by
  rw [HostVals.V1_main_arg1]; exact hA

/-- … and with a feature operand whose right half is zero. -/
theorem hX1 (hx : ∀ i, IsReal (m ((c : Thread nD τ).loc main_arg0) i)) (k : Fin 10000) (q : Fin 128) :
    V1 m ρ c main_v4 (ix2 k (hi q)) = (0 : EReal) := by
  rw [HostVals.V1_main_v4]; exact splitArr_hi_real _ (fun r q => hx _) k q

/-- The first region's neighbourhood sum is `A · x`. -/
theorem fp1_eq (hx : ∀ i, IsReal (m ((c : Thread nD τ).loc main_arg0) i)) (hA : ∀ i, IsReal (m ((c : Thread nD τ).loc main_arg1) i)) :
    (dat0 (V1 m ρ) c).arrAt 5 cfg0.N = arr2 (agg (m ((c : Thread nD τ).loc main_arg1)) (m ((c : Thread nD τ).loc main_arg0))) := by
  rw [Region0.fp (V1 m ρ) c (hA1 m ρ c hA) (hX1 m ρ c hx), HostVals.V1_main_arg1, HostVals.V1_main_v4]
  refine congrArg arr2 (funext fun r => funext fun q => ?_)
  rw [aggN_splitArr, arr2_eta]

/-- The first region's second output is the two-halves array of the hidden features. -/
theorem h2_eq (hx : ∀ i, IsReal (m ((c : Thread nD τ).loc main_arg0) i)) (hA : ∀ i, IsReal (m ((c : Thread nD τ).loc main_arg1) i)) :
    (dat0 (V1 m ρ) c).arrAt 6 cfg0.N = splitArr (n := 10000) (hidf m c) := by
  rw [Region0.h2 (V1 m ρ) c (hA1 m ρ c hA) (hX1 m ρ c hx), HostVals.V1_main_arg1, HostVals.V1_main_v4, HostVals.V1_main_arg2,
    HostVals.V1_main_v7, HostVals.V1_main_v11]
  refine congrArg splitArr (funext fun r => funext fun j => ?_)
  show max (linN _ _ _ _ _ r j) lit0 = max (lin _ _ _ _ _ r j) lit0
  refine congrArg (fun z => max z lit0) ?_
  have e : arr2 (aggN (m ((c : Thread nD τ).loc main_arg1)) (splitArr (n := 10000) fun r q => m ((c : Thread nD τ).loc main_arg0) (ix2 r q)))
      = arr2 (agg (m ((c : Thread nD τ).loc main_arg1)) (arr2 fun r q => m ((c : Thread nD τ).loc main_arg0) (ix2 r q))) :=
    congrArg arr2 (funext fun r => funext fun q => aggN_splitArr _ _ r q)
  refine (congrArg (fun fp => linN _ _ fp _ _ r j) e).trans ?_
  refine (linN_splitArr (m ((c : Thread nD τ).loc main_arg6)) (fun r q => m ((c : Thread nD τ).loc main_arg0) (ix2 r q)) (fun r q => hx _)
    (m ((c : Thread nD τ).loc main_arg1)) (m ((c : Thread nD τ).loc main_arg2)) (m ((c : Thread nD τ).loc main_arg3)) r j).trans ?_
  rw [arr2_eta]

/-- The hidden features of real inputs are real. -/
theorem hidf_real (hx : ∀ i, IsReal (m ((c : Thread nD τ).loc main_arg0) i)) (hA : ∀ i, IsReal (m ((c : Thread nD τ).loc main_arg1) i))
    (hW : ∀ i, IsReal (m ((c : Thread nD τ).loc main_arg2) i)) (hb : ∀ i, IsReal (m ((c : Thread nD τ).loc main_arg3) i)) (he : ∀ i, IsReal (m ((c : Thread nD τ).loc main_arg6) i))
    (r : Fin 10000) (q : Fin 128) : IsReal (hidf m c r q) :=
  hid_real _ _ _ _ _ he hx hA hW hb r q

section
variable (hx : ∀ i, IsReal (m ((c : Thread nD τ).loc main_arg0) i)) (hA : ∀ i, IsReal (m ((c : Thread nD τ).loc main_arg1) i))
  (hW : ∀ i, IsReal (m ((c : Thread nD τ).loc main_arg2) i)) (hb : ∀ i, IsReal (m ((c : Thread nD τ).loc main_arg3) i)) (he : ∀ i, IsReal (m ((c : Thread nD τ).loc main_arg6) i))
include hx hA hW hb he

/-- The second region is entered with a real adjacency matrix. -/
theorem hA2 : ∀ i, IsReal (V2 m ρ c main_arg1 i) := by
  rw [HostVals.V2_main_arg1]; exact hA

/-- The second region's feature operand is the two-halves array of the hidden features. -/
theorem v13_1_eq : V2 m ρ c main_v13_1 = splitArr (n := 10000) (hidf m c) := by
  rw [HostVals.V2_main_v13_1, h2_eq m ρ c hx hA]

/-- … whose right half is zero. -/
theorem hX2 (k : Fin 10000) (q : Fin 128) : V2 m ρ c main_v13_1 (ix2 k (hi q)) = (0 : EReal) := by
  rw [v13_1_eq m ρ c hx hA hW hb he]; exact splitArr_hi_real _ (hidf_real m c hx hA hW hb he) k q

/-- The second region's neighbourhood sum is `A · h`. -/
theorem fp2_eq : (dat1 (V2 m ρ) c).arrAt 5 cfg1.N = arr2 (agg (m ((c : Thread nD τ).loc main_arg1)) (arr2 (hidf m c))) := by
  rw [Region1.fp (V2 m ρ) c (hA2 m ρ c hx hA hW hb he) (hX2 m ρ c hx hA hW hb he), HostVals.V2_main_arg1,
    v13_1_eq m ρ c hx hA hW hb he]
  exact congrArg arr2 (funext fun r => funext fun q => aggN_splitArr _ _ r q)

/-- The second region's result is the row-wise log-softmax of the second layer's linear part. -/
theorem res_eq : (dat1 (V2 m ρ) c).arrAt 6 cfg1.N
    = arr2 (fun r j => logSoftmax (lin (m ((c : Thread nD τ).loc main_arg7)) (arr2 (hidf m c)) (m ((c : Thread nD τ).loc main_arg1)) (m ((c : Thread nD τ).loc main_arg4)) (m ((c : Thread nD τ).loc main_arg5)) r) j) := by
  rw [Region1.res (V2 m ρ) c (hA2 m ρ c hx hA hW hb he) (hX2 m ρ c hx hA hW hb he), HostVals.V2_main_arg1,
    v13_1_eq m ρ c hx hA hW hb he, HostVals.V2_main_arg4, HostVals.V2_main_v10, HostVals.V2_main_v12]
  refine congrArg arr2 (funext fun r => funext fun j => ?_)
  have e : arr2 (aggN (m ((c : Thread nD τ).loc main_arg1)) (splitArr (n := 10000) (hidf m c)))
      = arr2 (agg (m ((c : Thread nD τ).loc main_arg1)) (arr2 (hidf m c))) :=
    congrArg arr2 (funext fun r => funext fun q => aggN_splitArr _ _ r q)
  rw [e]
  exact congrArg (fun u => logSoftmax u j) (funext fun j' => linN_splitArr (m ((c : Thread nD τ).loc main_arg7)) _ (hidf_real m c hx hA hW hb he) _ _ _ r j')

end

end Cert.KernelIdeal.KValue

end
-- ==== Proof.Finite.lean ====
/-
  The precondition read: when the `finite_inputs` predicate is all ones of the eight argument arrays, every entry of every
  argument is a real number. The predicate is the conjunction, argument by argument, of "every entry's absolute value is
  below +∞"; over the extended reals `|a| < ⊤` leaves exactly the reals.
-/
import proofs.«178551_g62586263437736_cont_9to1_m_674_6_alg».proof.Defs
import proofs.«178551_g62586263437736_cont_9to1_m_674_6_alg».proof.Proof.Spec
import Idealize.ShloMosaic.Lib.ReduceAll
import Idealize.ShloMosaic.Lib.ValueIdx
import Idealize.ShloMosaic.PureOps.Ideal.Laws

noncomputable section

namespace Cert.FiniteInputs

open Cert.Gin
open Idealize.ShloMosaic Idealize.ShloMosaic.TcCoe Idealize.SL.Sem Idealize.ShloMosaic.ValueIdx

/-- The f32 word `0x7F800000` reads as `+∞`. -/
theorem inf_eq_top : Ideal.ofBits .f32 0x7F800000#32 = ⊤ := by simp [Ideal.ofBits, Ideal.ieee]

/-- An extended real whose absolute value `max a (-a)` compares below `+∞` is a real number: at `⊥` and at `⊤` the
    absolute value is `⊤` itself. -/
theorem isReal_of_abs_lt (a : EReal)
    (e : FloatOps.cmpf (F := Ideal) (φ := .f32) .olt (FloatOps.hostAbsf (F := Ideal) (φ := .f32) a) (Ideal.ofBits .f32 0x7F800000#32) = 1#1) :
    IsReal a := by
  have e' : Ideal.cmp .olt (max a (-a)) (Ideal.ofBits .f32 0x7F800000#32) = 1#1 := e
  rw [inf_eq_top] at e'
  have hlt : max a (-a) < ⊤ := by
    simp only [Ideal.cmp] at e'
    by_contra hn
    rw [decide_eq_false hn] at e'
    exact absurd e' (by decide)
  induction a using EReal.rec with
  | bot => simp at hlt
  | coe r => exact ⟨r, rfl⟩
  | top => simp at hlt

/-- The rank-0 shape has one index. -/
instance subsingleton_S_Idx : Subsingleton Cert.Pre_finite_inputs.S_.Idx := ⟨fun a b => funext fun d => d.elim0⟩

/-- One argument's conjunct: when the conjunction over all entries of `|x i| < y i`, with `y` constantly `+∞`, is 1,
    every entry of `x` is real. The conjunction is a fold by `and` into a result of one index, so each entry's comparison is 1. -/
theorem real_of_all {s t u : Shape} {axes : List (Fin s.rank)} [Subsingleton t.Idx]
    (x y : FVec Ideal s .f32) (hy : ∀ i, y i = Ideal.ofBits .f32 0x7F800000#32)
    (init : IVec u 1) (h : s.ReducesTo axes t) (hu : 0 < u.numel) (j : t.Idx)
    (e : Host.reduce IntOp.andi (cmpf .olt (Host.absf x) y) init h hu j = 1#1) (i : s.Idx) : IsReal (x i) := by
  have e1 := Host.reduce_andi_all _ init h hu j e i
  refine isReal_of_abs_lt (x i) ?_
  rw [← hy i]
  exact e1

/-- Under the precondition every entry of every argument of the idealized kernel program is real. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i)) := by
  -- the predicate at its one index: a seven-fold `and` of the eight per-argument conjunctions
  have h0 := congrFun (h c) ValueIdx.ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  -- each conjunct compares against the constant `+∞`, broadcast for the six arrays and as it stands for the two scalars
  refine ⟨?_, ?_, ?_, ?_, ?_, ?_, ?_, ?_⟩
  · exact real_of_all _ _ (fun _ => rfl) _ _ _ _ e0
  · exact real_of_all _ _ (fun _ => rfl) _ _ _ _ e1
  · exact real_of_all _ _ (fun _ => rfl) _ _ _ _ e2
  · exact real_of_all _ _ (fun _ => rfl) _ _ _ _ e3
  · exact real_of_all _ _ (fun _ => rfl) _ _ _ _ e4
  · exact real_of_all _ _ (fun _ => rfl) _ _ _ _ e5
  · exact real_of_all _ _ (fun _ => rfl) _ _ _ _ e6
  · exact real_of_all _ _ (fun _ => rfl) _ _ _ _ e7

end Cert.FiniteInputs

end
-- ==== Proof.lean ====
/-
  The certificate that the two-layer graph-isomorphism kernel program is its jnp reference over the extended reals, on finite
  inputs. Each layer of the reference is `u = ((1 + ε)·f + A·f)·W + b` with the dense neighbourhood sum `A·f`; the first
  layer ends in `max(u, 0)`, the second in a row-wise log-softmax; the results are the log-softmax and the two neighbourhood
  sums. The kernel program computes each layer in one pallas_call over 25 blocks of 400 node rows. It carries a feature
  operand `f` as two halves `[f | f − f]` and the adjacency block as `a` and `a − a`, multiplies both against both halves and
  adds: on real inputs every remainder `v − v` is zero (at ±∞ it is not, which is where the precondition is used), so the
  products collapse to `A·f`, and "left half plus right half" is `f`. The hidden features are real again, so the same holds
  in the second layer. Both sides then are the same functions of the arguments (Proof/Spec.lean), index by index.
  The three frames are the programs' runs with the results dropped; the three ledger entries say that widening after
  narrowing is the identity over the extended reals.
-/
import proofs.«178551_g62586263437736_cont_9to1_m_674_6_alg».proof.Defs
import proofs.«178551_g62586263437736_cont_9to1_m_674_6_alg».proof.Proof.Gen.Kernel
import proofs.«178551_g62586263437736_cont_9to1_m_674_6_alg».proof.Proof.Gen.Kernel.Frame
import proofs.«178551_g62586263437736_cont_9to1_m_674_6_alg».proof.Proof.Gen.KernelIdeal
import proofs.«178551_g62586263437736_cont_9to1_m_674_6_alg».proof.Proof.Gen.KernelIdeal.Frame
import proofs.«178551_g62586263437736_cont_9to1_m_674_6_alg».proof.Proof.Gen.ReferenceIdeal
import proofs.«178551_g62586263437736_cont_9to1_m_674_6_alg».proof.Proof.Gen.Pre_finite_inputs
import proofs.«178551_g62586263437736_cont_9to1_m_674_6_alg».proof.Proof.RefRun
import proofs.«178551_g62586263437736_cont_9to1_m_674_6_alg».proof.Proof.RefRead
import proofs.«178551_g62586263437736_cont_9to1_m_674_6_alg».proof.Proof.RefValue
import proofs.«178551_g62586263437736_cont_9to1_m_674_6_alg».proof.Proof.KernelRun
import proofs.«178551_g62586263437736_cont_9to1_m_674_6_alg».proof.Proof.KernelValue
import proofs.«178551_g62586263437736_cont_9to1_m_674_6_alg».proof.Proof.Finite
import Idealize.ShloMosaic.Adequacy
import Idealize.ShloMosaic.Init

noncomputable section

namespace Cert.Proof

open Idealize.ShloMosaic Idealize.SL.Sem Cert.Gin

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.ValueP.run (F := Ideal) m ρ)

/-- The ledger's three entries: over the extended reals a widening after a narrowing is the identity. -/
theorem preserves : Cert.preserves_Kernel_KernelIdeal :=
  ⟨IdealRules.truncf_extf.statement _ .f32 .bf16, IdealRules.truncf_extf.statement _ .f32 .bf16,
    IdealRules.truncf_extf.statement _ .f32 .bf16⟩

/-- Both programs end with the log-softmax rows, `A·x` and `A·h` of the same arguments. -/
theorem algebraic : Cert.algebraic_KernelIdeal_ReferenceIdeal := by
  intro m ρ m' ρ' hpre hagree
  refine ⟨fun c => arr2 (fun r j => logSoftmax (lin (m ((c.tc : Thread Cert.KernelIdeal.nD Cert.KernelIdeal.τ).loc Cert.KernelIdeal.main_arg7)) (arr2 (Cert.KernelIdeal.KValue.hidf m c))
              (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) r) j),
    fun c => arr2 (agg (m ((c.tc : Thread Cert.KernelIdeal.nD Cert.KernelIdeal.τ).loc Cert.KernelIdeal.main_arg1)) (m ((c.tc : Thread Cert.KernelIdeal.nD Cert.KernelIdeal.τ).loc Cert.KernelIdeal.main_arg0))),
    fun c => arr2 (agg (m ((c.tc : Thread Cert.KernelIdeal.nD Cert.KernelIdeal.τ).loc Cert.KernelIdeal.main_arg1)) (arr2 (Cert.KernelIdeal.KValue.hidf m c))), ?_, ?_⟩
  · refine (θ_run Cert.KernelIdeal.defs _ _).mono (fun r h c => ?_) (Cert.KernelIdeal.GenP.run_results (F := Ideal) m ρ)
    obtain ⟨hx, hA, hW1, hb1, -, -, he1, -⟩ := Cert.FiniteInputs.real_of_pre m hpre c
    exact ⟨(h c).1.trans ((Cert.KernelIdeal.HostVals.W3_main_v14_1 m ρ c).trans (Cert.KernelIdeal.KValue.res_eq m ρ c hx hA hW1 hb1 he1)),
      (h c).2.1.trans ((Cert.KernelIdeal.HostVals.W3_main_v13_0 m ρ c).trans (Cert.KernelIdeal.KValue.fp1_eq m ρ c hx hA)),
      (h c).2.2.1.trans ((Cert.KernelIdeal.HostVals.W3_main_v14_0 m ρ c).trans (Cert.KernelIdeal.KValue.fp2_eq m ρ c hx hA hW1 hb1 he1)),
      (h c).2.2.2⟩
  · refine (θ_run Cert.ReferenceIdeal.defs _ _).mono (fun r h c => ?_) (Cert.ReferenceIdeal.ValueP.run (F := Ideal) m' ρ')
    obtain ⟨h0, h1, h2, h3, h4, h5, h6, h7⟩ := hagree c
    refine ⟨(h c).1.trans ?_, (h c).2.1.trans ?_, (h c).2.2.1.trans ?_, (h c).2.2.2⟩
    · refine ((Cert.ReferenceIdeal.ReadP.val_main_v19_eq m' c).trans (Cert.ReferenceIdeal.RefValue.res_eq _ _ _ _ _ _ _ _)).trans ?_
      rw [h0, h1, h2, h3, h4, h5, h6, h7]
    · refine ((Cert.ReferenceIdeal.ReadP.val_main_v0_eq _ _).trans (Cert.ReferenceIdeal.RefValue.fp1_eq _ _)).trans ?_
      rw [h0, h1]
    · refine ((Cert.ReferenceIdeal.ReadP.val_main_v10_eq _ _ _ _ _).trans (Cert.ReferenceIdeal.RefValue.fp2_eq _ _ _ _ _)).trans ?_
      rw [h0, h1, h2, h3, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
